-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S_ : Shape := ⟨0, ![]⟩

class Facts : Prop where
  bcast_S_S1024x1000x16 : S_.BroadcastsInDim S1024x1000x16 (![] : Fin 0 → Fin S1024x1000x16.rank)
  reducesTo_S1024x1000x16_S_d0_1_2 : S1024x1000x16.ReducesTo [0, 1, 2] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S1000x16 : S_.BroadcastsInDim S1000x16 (![] : Fin 0 → Fin S1000x16.rank)
  reducesTo_S1000x16_S_d0_1 : S1000x16.ReducesTo [0, 1] S_
  bcast_S_S100000x16 : S_.BroadcastsInDim S100000x16 (![] : Fin 0 → Fin S100000x16.rank)
  reducesTo_S100000x16_S_d0_1 : S100000x16.ReducesTo [0, 1] S_
  bcast_S_S1000x1 : S_.BroadcastsInDim S1000x1 (![] : Fin 0 → Fin S1000x1.rank)
  reducesTo_S1000x1_S_d0_1 : S1000x1.ReducesTo [0, 1] S_

variable [Facts]

def fn_part1 {F : FTy → Type} [FloatOps F] (main_arg5 : FVec F S100000x16 .f32) (main_arg6 : FVec F S1000x1 .f32) (main_v13 : IVec S_ 1) (main_v16 : IVec S1000x16 1) : IVec S_ 1 :=
  let main_c_5 : IVec S_ 1 := constantI S_ 1 1#1
  let main_v17 : IVec S_ 1 := (fun x v => Host.reduce IntOp.andi x v reducesTo_S1000x16_S_d0_1 h_S_) main_v16 main_c_5
  let main_v18 : IVec S_ 1 := andi main_v13 main_v17
  let main_v19 : FVec F S100000x16 .f32 := Host.absf main_arg5
  let main_cst_6 : FVec F S_ .f32 := constant S_ .f32 0x7F800000#32
  let main_v20 : FVec F S100000x16 .f32 := broadcastInDim S100000x16 ![] bcast_S_S100000x16 main_cst_6
  let main_v21 : IVec S100000x16 1 := cmpf .olt main_v19 main_v20
  let main_c_7 : IVec S_ 1 := constantI S_ 1 1#1
  let main_v22 : IVec S_ 1 := (fun x v => Host.reduce IntOp.andi x v reducesTo_S100000x16_S_d0_1 h_S_) main_v21 main_c_7
  let main_v23 : IVec S_ 1 := andi main_v18 main_v22
  let main_v24 : FVec F S1000x1 .f32 := Host.absf main_arg6
  let main_cst_8 : FVec F S_ .f32 := constant S_ .f32 0x7F800000#32
  let main_v25 : FVec F S1000x1 .f32 := broadcastInDim S1000x1 ![] bcast_S_S1000x1 main_cst_8
  let main_v26 : IVec S1000x1 1 := cmpf .olt main_v24 main_v25
  let main_c_9 : IVec S_ 1 := constantI S_ 1 1#1
  let main_v27 : IVec S_ 1 := (fun x v => Host.reduce IntOp.andi x v reducesTo_S1000x1_S_d0_1 h_S_) main_v26 main_c_9
  let main_v28 : IVec S_ 1 := andi main_v23 main_v27
  main_v28

def fn {F : FTy → Type} [FloatOps F] (main_arg0 : FVec F S1024x1000x16 .f32) (main_arg1 : FVec F S1024x1000x16 .f32) (main_arg2 : FVec F S1024x100000 .f32) (main_arg3 : IVec S1024x1000 1) (main_arg4 : FVec F S1000x16 .f32) (main_arg5 : FVec F S100000x16 .f32) (main_arg6 : FVec F S1000x1 .f32) : IVec S_ 1 :=
  let main_v0 : FVec F S1024x1000x16 .f32 := Host.absf main_arg0
  let main_cst : FVec F S_ .f32 := constant S_ .f32 0x7F800000#32
  let main_v1 : FVec F S1024x1000x16 .f32 := broadcastInDim S1024x1000x16 ![] bcast_S_S1024x1000x16 main_cst
  let main_v2 : IVec S1024x1000x16 1 := cmpf .olt main_v0 main_v1
  let main_c : IVec S_ 1 := constantI S_ 1 1#1
  let main_v3 : IVec S_ 1 := (fun x v => Host.reduce IntOp.andi x v reducesTo_S1024x1000x16_S_d0_1_2 h_S_) main_v2 main_c
  let main_v4 : FVec F S1024x1000x16 .f32 := Host.absf main_arg1
  let main_cst_0 : FVec F S_ .f32 := constant S_ .f32 0x7F800000#32
  let main_v5 : FVec F S1024x1000x16 .f32 := broadcastInDim S1024x1000x16 ![] bcast_S_S1024x1000x16 main_cst_0
  let main_v6 : IVec S1024x1000x16 1 := cmpf .olt main_v4 main_v5
  let main_c_1 : IVec S_ 1 := constantI S_ 1 1#1
  let main_v7 : IVec S_ 1 := (fun x v => Host.reduce IntOp.andi x v reducesTo_S1024x1000x16_S_d0_1_2 h_S_) main_v6 main_c_1
  let main_v8 : IVec S_ 1 := andi main_v3 main_v7
  let main_v9 : FVec F S1024x100000 .f32 := Host.absf main_arg2
  let main_cst_2 : FVec F S_ .f32 := constant S_ .f32 0x7F800000#32
  let main_v10 : FVec F S1024x100000 .f32 := broadcastInDim S1024x100000 ![] bcast_S_S1024x100000 main_cst_2
  let main_v11 : IVec S1024x100000 1 := cmpf .olt main_v9 main_v10
  let main_c_3 : IVec S_ 1 := constantI S_ 1 1#1
  let main_v12 : IVec S_ 1 := (fun x v => Host.reduce IntOp.andi x v reducesTo_S1024x100000_S_d0_1 h_S_) main_v11 main_c_3
  let main_v13 : IVec S_ 1 := andi main_v8 main_v12
  let main_v14 : FVec F S1000x16 .f32 := Host.absf main_arg4
  let main_cst_4 : FVec F S_ .f32 := constant S_ .f32 0x7F800000#32
  let main_v15 : FVec F S1000x16 .f32 := broadcastInDim S1000x16 ![] bcast_S_S1000x16 main_cst_4
  let main_v16 : IVec S1000x16 1 := cmpf .olt main_v14 main_v15
  fn_part1 (F := F) main_arg5 main_arg6 main_v13 main_v16
-- ==== Kernel.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S100000x1024 : Shape := ⟨2, ![100000, 1024]⟩
abbrev S1000x16x1024 : Shape := ⟨3, ![1000, 16, 1024]⟩
abbrev S1000x1024 : Shape := ⟨2, ![1000, 1024]⟩
abbrev S1000x16x1 : Shape := ⟨3, ![1000, 16, 1]⟩
abbrev S1000x1x1 : Shape := ⟨3, ![1000, 1, 1]⟩
abbrev S16x1024 : Shape := ⟨2, ![16, 1024]⟩
abbrev S2000x16 : Shape := ⟨2, ![2000, 16]⟩
abbrev S2000x1024 : Shape := ⟨2, ![2000, 1024]⟩
abbrev S40x16x1024 : Shape := ⟨3, ![40, 16, 1024]⟩
abbrev S40x16x1 : Shape := ⟨3, ![40, 16, 1]⟩
abbrev S40x1x1 : Shape := ⟨3, ![40, 1, 1]⟩
abbrev S40x1024 : Shape := ⟨2, ![40, 1024]⟩
abbrev S1x16x1024 : Shape := ⟨3, ![1, 16, 1024]⟩
abbrev S40x1 : Shape := ⟨2, ![40, 1]⟩

abbrev nBuf : Space → Nat
  | .hbm => 17
  | .vmem => 18
  | .smem => 0
  | _ => 0

abbrev bufTy : (tb : Table) → Fin (tcTables nBuf tb) → BufTy
  | .hbm, ⟨0, _⟩ => ⟨S1024x1000x16, .f32⟩
  | .hbm, ⟨1, _⟩ => ⟨S1024x1000x16, .f32⟩
  | .hbm, ⟨2, _⟩ => ⟨S1024x100000, .f32⟩
  | .hbm, ⟨3, _⟩ => ⟨S1024x1000, .i1⟩
  | .hbm, ⟨4, _⟩ => ⟨S1000x16, .f32⟩
  | .hbm, ⟨5, _⟩ => ⟨S100000x16, .f32⟩
  | .hbm, ⟨6, _⟩ => ⟨S1000x1, .f32⟩
  | .hbm, ⟨7, _⟩ => ⟨S100000x1024, .f32⟩
  | .hbm, ⟨8, _⟩ => ⟨S1000x16x1024, .f32⟩
  | .hbm, ⟨9, _⟩ => ⟨S1000x16x1024, .f32⟩
  | .hbm, ⟨10, _⟩ => ⟨S1000x1024, .i1⟩
  | .hbm, ⟨11, _⟩ => ⟨S1000x16x1, .f32⟩
  | .hbm, ⟨12, _⟩ => ⟨S1000x1x1, .f32⟩
  | .hbm, ⟨13, _⟩ => ⟨S16x1024, .f32⟩
  | .hbm, ⟨14, _⟩ => ⟨S1000x1024, .i32⟩
  | .hbm, ⟨15, _⟩ => ⟨S1000x1024, .f32⟩
  | .hbm, ⟨16, _⟩ => ⟨S1024x1000, .f32⟩
  | .local _ .vmem, ⟨0, _⟩ => ⟨S2000x16, .f32⟩
  | .local _ .vmem, ⟨1, _⟩ => ⟨S2000x16, .f32⟩
  | .local _ .vmem, ⟨2, _⟩ => ⟨S2000x1024, .f32⟩
  | .local _ .vmem, ⟨3, _⟩ => ⟨S2000x1024, .f32⟩
  | .local _ .vmem, ⟨4, _⟩ => ⟨S16x1024, .f32⟩
  | .local _ .vmem, ⟨5, _⟩ => ⟨S40x16x1024, .f32⟩
  | .local _ .vmem, ⟨6, _⟩ => ⟨S40x16x1024, .f32⟩
  | .local _ .vmem, ⟨7, _⟩ => ⟨S40x16x1024, .f32⟩
  | .local _ .vmem, ⟨8, _⟩ => ⟨S40x16x1024, .f32⟩
  | .local _ .vmem, ⟨9, _⟩ => ⟨S40x16x1, .f32⟩
  | .local _ .vmem, ⟨10, _⟩ => ⟨S40x16x1, .f32⟩
  | .local _ .vmem, ⟨11, _⟩ => ⟨S16x1024, .f32⟩
  | .local _ .vmem, ⟨12, _⟩ => ⟨S40x1x1, .f32⟩
  | .local _ .vmem, ⟨13, _⟩ => ⟨S40x1x1, .f32⟩
  | .local _ .vmem, ⟨14, _⟩ => ⟨S40x1024, .i32⟩
  | .local _ .vmem, ⟨15, _⟩ => ⟨S40x1024, .i32⟩
  | .local _ .vmem, ⟨16, _⟩ => ⟨S40x1024, .f32⟩
  | .local _ .vmem, ⟨17, _⟩ => ⟨S40x1024, .f32⟩
  | _, _ => ⟨S1024x1000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S40x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S40x16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S40x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S40x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S40x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S1024x100000_S100000x1024_1_0 : S1024x100000.Transposes [1, 0] S100000x1024
  transposes_S1024x1000x16_S1000x16x1024_1_2_0 : S1024x1000x16.Transposes [1, 2, 0] S1000x16x1024
  transposes_S1024x1000_S1000x1024_1_0 : S1024x1000.Transposes [1, 0] S1000x1024
  bcast_S1000x16_S1000x16x1_0_1 : S1000x16.BroadcastsInDim S1000x16x1 (![0, 1] : Fin 2 → Fin S1000x16x1.rank)
  bcast_S1000x1_S1000x1x1_0_1 : S1000x1.BroadcastsInDim S1000x1x1 (![0, 1] : Fin 2 → Fin S1000x1x1.rank)
  inb_S2000x16_S2000x16_0_0 : ∀ a, (![0, 0] : Fin 2 → Nat) a + S2000x16.size a ≤ S2000x16.size a
  h_S2000x16 : 0 < S2000x16.numel
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  natLt_1_32 : 1 < 32
  inb_S40x16x1024_S40x16x1024_0_0_0 : ∀ a, (![0, 0, 0] : Fin 3 → Nat) a + S40x16x1024.size a ≤ S40x16x1024.size a
  h_S40x16x1024 : 0 < S40x16x1024.numel
  shapeCasts_S40x16x1024_S40x16x1024 : S40x16x1024.ShapeCasts S40x16x1024
  inb_S40x16x1_S40x16x1_0_0_0 : ∀ a, (![0, 0, 0] : Fin 3 → Nat) a + S40x16x1.size a ≤ S40x16x1.size a
  h_S40x16x1 : 0 < S40x16x1.numel
  shapeCasts_S40x16x1_S40x16x1 : S40x16x1.ShapeCasts S40x16x1
  broadcasts_S40x16x1_S40x16x1024 : S40x16x1.Broadcasts S40x16x1024
  shapeCasts_S16x1024_S1x16x1024 : S16x1024.ShapeCasts S1x16x1024
  broadcasts_S1x16x1024_S40x16x1024 : S1x16x1024.Broadcasts S40x16x1024
  reduces_S40x16x1024_S40x1024 : S40x16x1024.Reduces [1] S40x1024
  inb_S40x1x1_S40x1x1_0_0_0 : ∀ a, (![0, 0, 0] : Fin 3 → Nat) a + S40x1x1.size a ≤ S40x1x1.size a
  h_S40x1x1 : 0 < S40x1x1.numel
  shapeCasts_S40x1x1_S40x1x1 : S40x1x1.ShapeCasts S40x1x1
  shapeCasts_S40x1x1_S40x1 : S40x1x1.ShapeCasts S40x1
  broadcasts_S40x1_S40x1024 : S40x1.Broadcasts S40x1024
  inb_S40x1024_S40x1024_0_0 : ∀ a, (![0, 0] : Fin 2 → Nat) a + S40x1024.size a ≤ S40x1024.size a
  h_S40x1024 : 0 < S40x1024.numel
  shapeCasts_S40x1024_S40x1024 : S40x1024.ShapeCasts S40x1024
  transposes_S1000x1024_S1024x1000_1_0 : S1000x1024.Transposes [1, 0] S1024x1000
  dot_S2000x16_S2000x1024_S16x1024_0_0_1_1_n_n_wf : DotDims.WF S2000x16 S2000x1024 S16x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S40x16x1024.size a ≤ S1000x16x1024.size a
  hwx1_0 : ∀ i : grid1.Coords, EltTy.bits .f32 = 32 ∨ (Rect.block (s := S1000x16x1024) S40x16x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S40x16x1024.size a ≤ S1000x16x1024.size a
  hwx1_1 : ∀ i : grid1.Coords, EltTy.bits .f32 = 32 ∨ (Rect.block (s := S1000x16x1024) S40x16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S40x16x1.size a ≤ S1000x16x1.size a
  hwx1_2 : ∀ i : grid1.Coords, EltTy.bits .f32 = 32 ∨ (Rect.block (s := S1000x16x1) S40x16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x1024.size a
  hwx1_3 : ∀ i : grid1.Coords, EltTy.bits .f32 = 32 ∨ (Rect.block (s := S16x1024) S16x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S40x1x1.size a ≤ S1000x1x1.size a
  hwx1_4 : ∀ i : grid1.Coords, EltTy.bits .f32 = 32 ∨ (Rect.block (s := S1000x1x1) S40x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S40x1024.size a ≤ S1000x1024.size a
  hwx1_5 : ∀ i : grid1.Coords, EltTy.bits .i32 = 32 ∨ (Rect.block (s := S1000x1024) S40x1024.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S40x1024.size a ≤ S1000x1024.size a
  hwx1_6 : ∀ i : grid1.Coords, EltTy.bits .f32 = 32 ∨ (Rect.block (s := S1000x1024) S40x1024.size (cc1_transform_6 i) (hinb1_6 i)).WholeWords (EltTy.packing .f32)

variable [Facts₀]

def dot_S2000x16_S2000x1024_S16x1024_0_0_1_1_n_n : DotDims S2000x16 S2000x1024 S16x1024 where
  lhsContracting := [0]
  rhsContracting := [0]
  lhsNonContracting := [1]
  rhsNonContracting := [1]
  lhsBatch := []
  rhsBatch := []
  wf := dot_S2000x16_S2000x1024_S16x1024_0_0_1_1_n_n_wf

abbrev win0_0 : Pipeline.Window sig grid0 :=
  Pipeline.Window.ofSpec (Memref.whole main_arg5) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v1) S40x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S40x16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S40x16x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S16x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S40x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S40x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8) S40x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S_ : Shape := ⟨0, ![]⟩
abbrev S1x1000x16 : Shape := ⟨3, ![1, 1000, 16]⟩
abbrev S1024x16 : Shape := ⟨2, ![1024, 16]⟩
abbrev S1024x1x16 : Shape := ⟨3, ![1024, 1, 16]⟩
abbrev S1024x1000x1 : Shape := ⟨3, ![1024, 1000, 1]⟩
abbrev S1x1000x1 : Shape := ⟨3, ![1, 1000, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x1000x16, .f32⟩
  | .hbm, ⟨1, _⟩ => ⟨S1024x1000x16, .f32⟩
  | .hbm, ⟨2, _⟩ => ⟨S1024x100000, .f32⟩
  | .hbm, ⟨3, _⟩ => ⟨S1024x1000, .i1⟩
  | .hbm, ⟨4, _⟩ => ⟨S1000x16, .f32⟩
  | .hbm, ⟨5, _⟩ => ⟨S100000x16, .f32⟩
  | .hbm, ⟨6, _⟩ => ⟨S1000x1, .f32⟩
  | .hbm, ⟨7, _⟩ => ⟨S_, .f32⟩
  | .hbm, ⟨8, _⟩ => ⟨S1024x1000, .f32⟩
  | .hbm, ⟨9, _⟩ => ⟨S1x1000x16, .f32⟩
  | .hbm, ⟨10, _⟩ => ⟨S1024x1000x16, .f32⟩
  | .hbm, ⟨11, _⟩ => ⟨S1024x1000x16, .f32⟩
  | .hbm, ⟨12, _⟩ => ⟨S_, .f32⟩
  | .hbm, ⟨13, _⟩ => ⟨S1024x1000, .f32⟩
  | .hbm, ⟨14, _⟩ => ⟨S1024x1000, .f32⟩
  | .hbm, ⟨15, _⟩ => ⟨S1024x16, .f32⟩
  | .hbm, ⟨16, _⟩ => ⟨S1024x1x16, .f32⟩
  | .hbm, ⟨17, _⟩ => ⟨S1024x1000x16, .f32⟩
  | .hbm, ⟨18, _⟩ => ⟨S1024x1000x16, .f32⟩
  | .hbm, ⟨19, _⟩ => ⟨S_, .f32⟩
  | .hbm, ⟨20, _⟩ => ⟨S1024x1000, .f32⟩
  | .hbm, ⟨21, _⟩ => ⟨S1024x1000, .f32⟩
  | .hbm, ⟨22, _⟩ => ⟨S_, .f32⟩
  | .hbm, ⟨23, _⟩ => ⟨S1024x1000x1, .f32⟩
  | .hbm, ⟨24, _⟩ => ⟨S1x1000x1, .f32⟩
  | .hbm, ⟨25, _⟩ => ⟨S1024x1000x1, .f32⟩
  | .hbm, ⟨26, _⟩ => ⟨S1024x1000x1, .f32⟩
  | .hbm, ⟨27, _⟩ => ⟨S_, .f32⟩
  | .hbm, ⟨28, _⟩ => ⟨S1024x1000, .f32⟩
  | .hbm, ⟨29, _⟩ => ⟨S1024x1000, .f32⟩
  | .hbm, ⟨30, _⟩ => ⟨S_, .f32⟩
  | .hbm, ⟨31, _⟩ => ⟨S1024x1000, .f32⟩
  | .hbm, ⟨32, _⟩ => ⟨S1024x1000, .f32⟩
  | _, _ => ⟨S1024x1000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S1024x1000 : S_.BroadcastsInDim S1024x1000 (![] : Fin 0 → Fin S1024x1000.rank)
  bcast_S1000x16_S1x1000x16_1_2 : S1000x16.BroadcastsInDim S1x1000x16 (![1, 2] : Fin 2 → Fin S1x1000x16.rank)
  bcast_S1x1000x16_S1024x1000x16_0_1_2 : S1x1000x16.BroadcastsInDim S1024x1000x16 (![0, 1, 2] : Fin 3 → Fin S1024x1000x16.rank)
  reducesTo_S1024x1000x16_S1024x1000_d2 : S1024x1000x16.ReducesTo [2] S1024x1000
  h_S_ : 0 < S_.numel
  bcast_S1024x16_S1024x1x16_0_2 : S1024x16.BroadcastsInDim S1024x1x16 (![0, 2] : Fin 2 → Fin S1024x1x16.rank)
  bcast_S1024x1x16_S1024x1000x16_0_1_2 : S1024x1x16.BroadcastsInDim S1024x1000x16 (![0, 1, 2] : Fin 3 → Fin S1024x1000x16.rank)
  bcast_S_S1024x1000x1 : S_.BroadcastsInDim S1024x1000x1 (![] : Fin 0 → Fin S1024x1000x1.rank)
  bcast_S1000x1_S1x1000x1_1_2 : S1000x1.BroadcastsInDim S1x1000x1 (![1, 2] : Fin 2 → Fin S1x1000x1.rank)
  bcast_S1x1000x1_S1024x1000x1_0_1_2 : S1x1000x1.BroadcastsInDim S1024x1000x1 (![0, 1, 2] : Fin 3 → Fin S1024x1000x1.rank)
  reducesTo_S1024x1000x1_S1024x1000_d2 : S1024x1000x1.ReducesTo [2] S1024x1000
  dot_S1024x100000_S100000x16_S1024x16_1_0_0_1_n_n_wf : DotDims.WF S1024x100000 S100000x16 S1024x16 [1] [0] [0] [1] [] []

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.KRegion0.lean ====
/-
  The first kernel region: the one-hot matrix against the coefficient table, accumulated tile by tile.

  The grid has 50 points; point `t` stages rows 2000·t … 2000·t+1999 of the coefficient table (16 columns) and of
  the transposed one-hot matrix (1024 columns), and the single 16×1024 output block stays in its staging buffer from
  the first point to the last, where it is written back.  At the first point the body stores the tile's product
  over whatever the buffer held; at every later point it adds the tile's product to what the point before left.
  So the buffer after point `n` is a recursion on `n` (`acc0`), and that recursion is what the pipeline's proof data
  names for the output window.  Both conditions of the body are functions of the grid coordinate alone, and exactly
  one of them holds at every point, so no point is idle for the output window.
-/
import proofs.«176079_g88974542504030_cont_9to1c4b_294_10_alg».proof.Proof.Gen.Kernel.Launch
import proofs.«176079_g88974542504030_cont_9to1c4b_294_10_alg».proof.Proof.Gen.Kernel.Skeleton
import proofs.«176079_g88974542504030_cont_9to1c4b_294_10_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (both inputs are fetched at every point, their
    blocks tile their arrays, and the body only reads them). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- the body leaves the block in place, so the buffer holds what a fetch would put there: the block
  have hkeep : ∀ s, (cfg0.win 0).cut (cfg0.grid.coords s) (dat.after 0 s) = dat.blockOf 0 s := by
    intro s
    rw [hafter s]
    unfold Dat.blockOf iblk0
    rw [hA]
  rw [dat.before_in_eq_fetched 0 rfl (fun _ => rfl) (fun _ _ _ => rfl) hkeep t d]
  unfold Dat.fetched Dat.blockOf iblk0
  rw [hA]
  rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ s, (cfg0.win 1).cut (cfg0.grid.coords s) (dat.after 1 s) = dat.blockOf 1 s := by
    intro s
    rw [hafter s]
    unfold Dat.blockOf iblk0
    rw [hA]
  rw [dat.before_in_eq_fetched 1 rfl (fun _ => rfl) (fun _ _ _ => rfl) hkeep t d]
  unfold Dat.fetched Dat.blockOf iblk0
  rw [hA]
  rfl

/-! ## The body's accesses and what it leaves in the output block -/

abbrev rL0 : Rect S2000x16 := Rect.unit (s := S2000x16) ![0, 0] S2000x16.size inb_S2000x16_S2000x16_0_0
abbrev rR0 : Rect S2000x1024 := Rect.unit (s := S2000x1024) ![0, 0] S2000x1024.size inb_S2000x1024_S2000x1024_0_0
abbrev rO0 : Rect S16x1024 := Rect.unit (s := S16x1024) ![0, 0] S16x1024.size inb_S16x1024_S16x1024_0_0

/-- The output block after the FIRST point's body: the tile's product, stored whole. -/
def tileFirst (x0 : Vec F S2000x16 .f32) (x1 : Vec F S2000x1024 .f32) : Vec F S16x1024 .f32 :=
  View.canon [⟨rO0, k0_pay1 (View.ld x0 rL0) (View.ld x1 rR0)⟩]

/-- The output block after a LATER point's body: what the block held plus the tile's product, stored whole. -/
def tileNext (x0 : Vec F S2000x16 .f32) (x1 : Vec F S2000x1024 .f32) (acc : Vec F S16x1024 .f32) : Vec F S16x1024 .f32 :=
  View.canon [⟨rO0, k0_pay2 (View.ld x0 rL0) (View.ld x1 rR0) (View.ld acc rO0)⟩]

/-- The two conditions at every point of the grid, decided point by point. -/
private theorem cond0_grid : ∀ t : Fin grid0.N,
    (t.val = 0 → k0_cond1 (grid0.coords t) = 1#1 ∧ ¬ k0_cond2 (grid0.coords t) = 1#1)
      ∧ (t.val ≠ 0 → ¬ k0_cond1 (grid0.coords t) = 1#1 ∧ k0_cond2 (grid0.coords t) = 1#1) := by
  decide +kernel

/-- The two conditions as functions of the one coordinate's value. -/
private def cFirst (n : ℕ) : BitVec 1 :=
  Scalar.cmpi .ne (Scalar.extui (Scalar.cmpi .eq (BitVec.ofNat 32 n) 0#32) : BitVec 32) 0#32
private def cNext (n : ℕ) : BitVec 1 :=
  Scalar.cmpi .ne (Scalar.extui (Scalar.cmpi .sgt (BitVec.ofNat 32 n) 0#32) : BitVec 32) 0#32

/-- At every value the coordinate takes, one of the two holds. -/
private theorem cond0_cover : ∀ n : Fin 50, cFirst n.val = 1#1 ∨ cNext n.val = 1#1 := by
  decide +kernel

/-- Exactly one of the body's two conditions holds at each point: the first at point 0, the second after it. -/
theorem cond0_first (t : Fin cfg0.N) (h : t.val = 0) : k0_cond1 (grid0.coords t) = 1#1 ∧ ¬ k0_cond2 (grid0.coords t) = 1#1 :=
  (cond0_grid t).1 h
theorem cond0_next (t : Fin cfg0.N) (h : t.val ≠ 0) : ¬ k0_cond1 (grid0.coords t) = 1#1 ∧ k0_cond2 (grid0.coords t) = 1#1 :=
  (cond0_grid t).2 h
/-- So no point is idle for any window. -/
theorem live0 (w : Fin cfg0.W) (i : grid0.Coords) : cfg0.idle w i = false := by
  match w with
  | ⟨0, _⟩ => rfl
  | ⟨1, _⟩ => rfl
  | ⟨2, _⟩ =>
    show (!(k0_cond1 i == 1#1) && !(k0_cond2 i == 1#1)) = false
    have h1 : k0_cond1 i = cFirst (i 0).val := rfl
    have h2 : k0_cond2 i = cNext (i 0).val := rfl
    rcases cond0_cover (i 0) with h | h
    · rw [h1, h]; rfl
    · rw [h2, h]; simp

/-! ## The body's triples -/

/-- One store through the whole output rectangle covers the block. -/
private theorem cover_rO0 (p : rO0.shape.Idx → Elt F .f32) (y : S16x1024.Idx) :
    ∃ pc ∈ ([⟨rO0, p⟩] : List (View.Piece (Elt F) S16x1024 .f32)), y ∈ pc.1.set :=
  View.cover_of_tiled [⟨rO0, p⟩] S16x1024.size (by rfl) y

/-- At a point where only the first condition holds, the body on whole staging memrefs (the inputs' at `x0`, `x1`,
    the output's at anything) runs to the continuation holding the inputs as they were and the output at `tileFirst`. -/
theorem sound_kernel0_first (c : Dev nD) (E : Set ℕ) (i : grid0.Coords) (h1 : k0_cond1 i = 1#1) (h2 : ¬ k0_cond2 i = 1#1)
    (arg1 : Memref sig .tc .vmem S2000x16 .f32) (harg1 : arg1.IsWhole) (arg2 : Memref sig .tc .vmem S2000x1024 .f32) (harg2 : arg2.IsWhole)
    (arg3 : Memref sig .tc .vmem S16x1024 .f32) (harg3 : arg3.IsWhole)
    (x0 : Vec F S2000x16 .f32) (x1 : Vec F S2000x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileFirst x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr
    · ipureintro; rfl
    · iexact H0
  isplitl [H1]
  · iexists f1; isplitr
    · ipureintro; rfl
    · iexact H1
  iexists _; isplitr
  swap; · iexact H2
  ipureintro
  exact View.read_writes_eq_canon _ _ _ (cover_rO0 _)

/-- At a point where only the second condition holds, with the output's memref at `acc`, the body runs to the
    continuation holding the inputs as they were and the output at `tileNext … acc`. -/
theorem sound_kernel0_next (c : Dev nD) (E : Set ℕ) (i : grid0.Coords) (h1 : ¬ k0_cond1 i = 1#1) (h2 : k0_cond2 i = 1#1)
    (arg1 : Memref sig .tc .vmem S2000x16 .f32) (harg1 : arg1.IsWhole) (arg2 : Memref sig .tc .vmem S2000x1024 .f32) (harg2 : arg2.IsWhole)
    (arg3 : Memref sig .tc .vmem S16x1024 .f32) (harg3 : arg3.IsWhole)
    (x0 : Vec F S2000x16 .f32) (x1 : Vec F S2000x1024 .f32) (acc : Vec F S16x1024 .f32) (K : PUnit → sProp 𝕄) :
    iprop(owns (c : Thread nD τ) arg1 fullShare x0 ∗ owns (c : Thread nD τ) arg2 fullShare x1 ∗ owns (c : Thread nD τ) arg3 fullShare acc
        ∗ (iprop(owns (c : Thread nD τ) arg1 fullShare x0 ∗ owns (c : Thread nD τ) arg2 fullShare x1
            ∗ owns (c : Thread nD τ) arg3 fullShare (tileNext x0 x1 acc)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr
    · ipureintro; rfl
    · iexact H0
  isplitl [H1]
  · iexists f1; isplitr
    · ipureintro; rfl
    · iexact H1
  iexists _; isplitr
  swap; · iexact H2
  ipureintro
  exact View.read_writes_eq_canon _ _ _ (cover_rO0 _)

/-! ## The accumulator and the pipeline's proof data -/

/-- THE ACCUMULATION: what the output block holds after the body at point `n`. -/
def acc0 (c : Dev nD) : (n : ℕ) → n < cfg0.N → Vec F S16x1024 .f32
  | 0, hn => tileFirst (iblk0 V c 0 ⟨0, hn⟩) (iblk0 V c 1 ⟨0, hn⟩)
  | n + 1, hn => tileNext (iblk0 V c 0 ⟨n + 1, hn⟩) (iblk0 V c 1 ⟨n + 1, hn⟩) (acc0 c n (Nat.lt_of_succ_lt hn))

theorem acc0_zero (c : Dev nD) (t : Fin cfg0.N) (h : t.val = 0) :
    acc0 V c t.val t.isLt = tileFirst (iblk0 V c 0 t) (iblk0 V c 1 t) := by
  obtain ⟨n, hn⟩ := t
  cases n with
  | zero => rfl
  | succ n => exact absurd h (Nat.succ_ne_zero n)
theorem acc0_pos (c : Dev nD) (t : Fin cfg0.N) (h : t.val ≠ 0) :
    acc0 V c t.val t.isLt = tileNext (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-- The proof data of pipeline 0 on core `c`: the arrays as the region finds them; after the body at point `t` each
    input's buffer at its block and the output's at the accumulation; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the output's buffer holds what the point before left: it is written back at the last point
    only, it is uncut, and no point is idle. -/
theorem before0_2_next (c : Dev nD) (t : Fin cfg0.N) (h : t.val ≠ 0) (d) :
    (dat0 V c).before 2 t d = acc0 V c (t.val - 1) (Nat.lt_of_le_of_lt (Nat.sub_le _ _) t.isLt) := by
  have hN : t.val < 50 := lt_of_lt_of_eq t.isLt (show cfg0.N = 50 from N_0)
  -- the point before is not the last, so it did not write the block back
  have hfl : (cfg0.win 2).flush ⟨t.val - 1, Nat.lt_of_le_of_lt (Nat.sub_le _ _) t.isLt⟩ = false := by
    apply Bool.eq_false_iff.mpr
    intro hf
    have h49 := (flush0_2 _).mp hf
    dsimp only at h49
    omega
  rw [Dat.before_out_kept _ 2 rfl t h hfl (fun i => live0 2 i) (fun _ _ => rfl)]
  exact after0_2 V c _

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · -- the first point: the output's buffer holds anything, and the body stores the tile's product over it
    rw [acc0_zero V c t h0]
    obtain ⟨hc1, hc2⟩ := cond0_first t h0
    iintro ⟨HΦ, Ho, ⟨%d0, H0⟩, ⟨%d1, H1⟩, ⟨%d2, H2⟩⟩
    iapply (sound_kernel0_first c Set.univ (grid0.coords t) hc1 hc2 _ _ _ _ _ _ (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · -- a later point: the output's buffer holds what the point before left, and the body adds the tile's product
    rw [acc0_pos V c t h0]
    simp only [before0_2_next V c t h0]
    obtain ⟨hc1, hc2⟩ := cond0_next t h0
    iintro ⟨HΦ, Ho, ⟨%d0, H0⟩, ⟨%d1, H1⟩, ⟨%d2, H2⟩⟩
    iapply (sound_kernel0_next c Set.univ (grid0.coords t) hc1 hc2 _ _ _ _ _ _ (iblk0 V c 0 t) (iblk0 V c 1 t)
      (acc0 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  -- no point is idle for any window, so each buffer is handed back at what the body leaves
  rw [live0 2 (cfg0.grid.coords t)]
  exact sound_body0 V c t

end Cert.Kernel.Hand

end
-- ==== Proof.KRegion1.lean ====
/-
  The second kernel region: the utilities, forty items at a time.

  The grid has 25 points; point `t` stages items 40·t … 40·t+39 of the two transposed feature arrays, of the
  item coefficients, of the intercepts and of the widened availability mask, beside the whole 16×1024 block of
  user coefficients the first region produced (staged once, at the first point).  The body reads all six, forms
  Σ_p (x_u·coef_u + x_i·w) + intercept, selects against the fill value by the mask, and stores the 40×1024 block
  whole; every point writes its block back.  Nothing is carried from one point to the next.
-/
import proofs.«176079_g88974542504030_cont_9to1c4b_294_10_alg».proof.Proof.Gen.Kernel.Launch
import proofs.«176079_g88974542504030_cont_9to1c4b_294_10_alg».proof.Proof.Gen.Kernel.Skeleton
import proofs.«176079_g88974542504030_cont_9to1c4b_294_10_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the block of user
    coefficients is fetched at the first point only, and its index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  -- the buffer holds what a fetch at this point would put there, and that is the block read off the array
  refine (dat.before_in_eq_fetched 0 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  -- the buffer holds what a fetch at this point would put there, and that is the block read off the array
  refine (dat.before_in_eq_fetched 1 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  -- the buffer holds what a fetch at this point would put there, and that is the block read off the array
  refine (dat.before_in_eq_fetched 2 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  -- the buffer holds what a fetch at this point would put there, and that is the block read off the array
  refine (dat.before_in_eq_fetched 3 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  -- the buffer holds what a fetch at this point would put there, and that is the block read off the array
  refine (dat.before_in_eq_fetched 4 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  -- the buffer holds what a fetch at this point would put there, and that is the block read off the array
  refine (dat.before_in_eq_fetched 5 rfl (fun _ => rfl) (fun _ _ _ => rfl) ?_ t d).trans ?_
  · intro t'
    rw [hafter]; unfold Dat.blockOf iblk1; rw [hA]; try rfl
  · unfold Dat.fetched Dat.blockOf iblk1; rw [hA]; try rfl

/-! ## The body's accesses and what it leaves in the output block -/

abbrev r1_0 : Rect S40x16x1024 := Rect.unit (s := S40x16x1024) ![0, 0, 0] S40x16x1024.size inb_S40x16x1024_S40x16x1024_0_0_0
abbrev r1_2 : Rect S40x16x1 := Rect.unit (s := S40x16x1) ![0, 0, 0] S40x16x1.size inb_S40x16x1_S40x16x1_0_0_0
abbrev r1_3 : Rect S16x1024 := Rect.unit (s := S16x1024) ![0, 0] S16x1024.size inb_S16x1024_S16x1024_0_0
abbrev r1_4 : Rect S40x1x1 := Rect.unit (s := S40x1x1) ![0, 0, 0] S40x1x1.size inb_S40x1x1_S40x1x1_0_0_0
abbrev r1_5 : Rect S40x1024 := Rect.unit (s := S40x1024) ![0, 0] S40x1024.size inb_S40x1024_S40x1024_0_0

/-- The output block after the body, from the six input blocks: its one store, whole. (The payload takes its loads in
    the body's order: x_u's block, the item coefficients, x_i's block, the user coefficients, the intercepts, the mask.) -/
def utilBlock (x0 : Vec F S40x16x1024 .f32) (x1 : Vec F S40x16x1024 .f32) (x2 : Vec F S40x16x1 .f32) (x3 : Vec F S16x1024 .f32) (x4 : Vec F S40x1x1 .f32) (x5 : Vec F S40x1024 .i32) : Vec F S40x1024 .f32 :=
  View.canon [⟨r1_5, k1_pay1 (View.ld x0 r1_0) (View.ld x2 r1_2) (View.ld x1 r1_0) (View.ld x3 r1_3) (View.ld x4 r1_4) (View.ld x5 r1_5)⟩]

/-! ## The body's triple -/

/-- The one store is of the whole 40×1024 block, so it covers it. -/
private theorem cover1_6 (p0 : Vec F S40x1024 .f32) (y : S40x1024.Idx) :
    ∃ pc ∈ ([⟨r1_5, p0⟩] : List (View.Piece (Elt F) S40x1024 .f32)), y ∈ pc.1.set :=
  View.cover_of_tiled [⟨r1_5, p0⟩] S40x1024.size (by rfl) y

set_option maxHeartbeats 1000000 in
theorem sound_kernel1 (c : Dev nD) (E : Set ℕ) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (utilBlock x0 x1 x2 x3 x4 x5)) -∗ K ⟨⟩))
      ⊢ wp frame (wpE (defs₀ (F := F)) Variants.none c none) E (cc1__utility_kernel i arg1 harg1 arg2 harg2 arg3 harg3 arg4 harg4 arg5 harg5 arg6 harg6 arg7 harg7) K := by
  simp only [cc1__utility_kernel_eq_skeleton]; unfold cc1__utility_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- seven loads (the last one's value is dropped), then the store of the payload over the whole output block
  sl_exec
  sl_step
  iapply Hk
  -- the six inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output reads as the single covering store leaves it
  iexists _; isplitr
  swap; · iexact H6
  ipureintro
  exact View.read_writes_eq_canon _ _ _ (cover1_6 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => utilBlock (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = utilBlock (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- every input's buffer holds its block; the invariant and what is owed do not change over the body
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  -- the obligation's products over the seven windows, written out, are the body's pre- and postcondition
  rw [bigSep_W1, bigSep_W1]
  exact sound_body1 V c t

end Cert.Kernel.Hand

end
-- ==== Proof.KRun.lean ====
/-
  The whole program as one run: host operations, the first kernel region, one host operation, the second kernel
  region, one host operation.

  Between two items every unscoped buffer of the core is held whole at named contents: the launch memory, then each
  host stretch's results over it, and after a kernel region the region's output array at what its write-backs leave
  (the first region's one write-back of the accumulated block at its last point; the second region's 25 blocks),
  everything else as the region found it.  A region is entered by splitting its windows' arrays off the held buffers
  and left by putting them back; the generator register rides along and nothing is ever owed.  At the end each
  argument array and the result array are read back off the last contents.
-/
import proofs.«176079_g88974542504030_cont_9to1c4b_294_10_alg».proof.Proof.KRegion0
import proofs.«176079_g88974542504030_cont_9to1c4b_294_10_alg».proof.Proof.KRegion1
import proofs.«176079_g88974542504030_cont_9to1c4b_294_10_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the first region is entered from, read at the TensorCore's references. -/
abbrev VR1 : (c : Dev nD) → (b : Ref sig .tc) → Buf (Elt F) ((c : Thread nD τ).loc b) := fun c b => Gen.V1 m c b
/-- What the first region leaves in its output array: the accumulated block, written back once. -/
def o2 (c : Dev nD) : Buf (Elt F) ((c : Thread nD τ).loc main_v6) := (dat0 (VR1 m) c).arrAt 2 cfg0.N
/-- The buffers after the first region: its output array at `o2`, every other buffer as entered. -/
def X2 (c : Dev nD) : Valuation τ sig (Elt F) := Function.update (Gen.V1 m c) main_v6 (o2 m c)
/-- After the host operation between the regions (the mask widened to words). -/
def X3 (c : Dev nD) : Valuation τ sig (Elt F) := StableHlo.after hostOps1 (X2 m c)
abbrev VR3 : (c : Dev nD) → (b : Ref sig .tc) → Buf (Elt F) ((c : Thread nD τ).loc b) := fun c b => X3 m c b
/-- What the second region leaves in its output array: its 25 blocks written back. -/
def o4 (c : Dev nD) : Buf (Elt F) ((c : Thread nD τ).loc main_v8) := (dat1 (VR3 m) c).arrAt 6 cfg1.N
/-- The buffers after the second region. -/
def X4 (c : Dev nD) : Valuation τ sig (Elt F) := Function.update (X3 m c) main_v8 (o4 m c)

/-- The regions' written arrays, as the unknowns the host side's contents are stated over. -/
def outs : Gen.Outs (F := F) := fun _ r c => X4 m c r

theorem X2_v6 (c : Dev nD) : X2 m c main_v6 = o2 m c := by unfold X2; exact Function.update_self _ _ _
theorem X2_of_ne (c : Dev nD) (b : Ref sig .tc) (h : b ≠ main_v6) : X2 m c b = Gen.V1 m c b := by
  unfold X2; exact Function.update_of_ne (StableHlo.devRef_ne_of_ne h) _ _
theorem X3_of (c : Dev nD) (r : Ref sig .tc) (h : r ∉ Gen.hostOps1_W) : X3 m c r = X2 m c r :=
  StableHlo.after_of_writes_sub hostOps1 _ Gen.hostOps1_writes h
theorem X4_v8 (c : Dev nD) : X4 m c main_v8 = o4 m c := by unfold X4; exact Function.update_self _ _ _
theorem X4_of_ne (c : Dev nD) (b : Ref sig .tc) (h : b ≠ main_v8) : X4 m c b = X3 m c b := by
  unfold X4; exact Function.update_of_ne (StableHlo.devRef_ne_of_ne h) _ _

theorem outs_v6 (c : Dev nD) : outs m 2 main_v6 c = o2 m c := by
  unfold outs
  rw [X4_of_ne m c main_v6 (by decide), X3_of m c main_v6 (by decide), X2_v6]
theorem outs_v8 (c : Dev nD) : outs m 4 main_v8 c = o4 m c := by
  unfold outs; exact X4_v8 m c

/-- The host side's contents, at these unknowns, are the ones named here. -/
theorem V2_eq (c : Dev nD) : Gen.V2 m (outs m) c = X2 m c := by
  unfold X2; dsimp only [Gen.V2]; rw [outs_v6]
theorem V3_eq (c : Dev nD) : Gen.V3 m (outs m) c = X3 m c := by
  unfold X3; dsimp only [Gen.V3]; rw [V2_eq]
theorem V4_eq (c : Dev nD) : Gen.V4 m (outs m) c = X4 m c := by
  unfold X4; dsimp only [Gen.V4]; rw [outs_v8, V3_eq]

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## What each region's exit puts back -/

theorem hF0 (c : Dev nD) (w : Fin cfg0.W) : (dat0 (VR1 m) c).arrAt w cfg0.N = X2 m c (Pipeline.arrRef spec0 w) := by
  match w with
  | ⟨0, _⟩ => exact (((dat0 (VR1 m) c).arrAt_in 0 rfl _).trans (A_eq0 (VR1 m) c 0)).trans (X2_of_ne m c main_arg5 (by decide)).symm
  | ⟨1, _⟩ => exact (((dat0 (VR1 m) c).arrAt_in 1 rfl _).trans (A_eq0 (VR1 m) c 1)).trans (X2_of_ne m c main_v0 (by decide)).symm
  | ⟨2, _⟩ => exact (X2_v6 m c).symm
theorem hrest0 (c : Dev nD) : ∀ b, b ∉ Finset.univ.image (Pipeline.arrRef spec0) → X2 m c b = VR1 m c b :=
  fun b hb => X2_of_ne m c b fun e => hb (Finset.mem_image.mpr ⟨2, Finset.mem_univ _, (by rw [e] : Pipeline.arrRef spec0 2 = b)⟩)
theorem hF1 (c : Dev nD) (w : Fin cfg1.W) : (dat1 (VR3 m) c).arrAt w cfg1.N = X4 m c (Pipeline.arrRef spec1 w) := by
  match w with
  | ⟨0, _⟩ => exact (((dat1 (VR3 m) c).arrAt_in 0 rfl _).trans (A_eq1 (VR3 m) c 0)).trans (X4_of_ne m c main_v1 (by decide)).symm
  | ⟨1, _⟩ => exact (((dat1 (VR3 m) c).arrAt_in 1 rfl _).trans (A_eq1 (VR3 m) c 1)).trans (X4_of_ne m c main_v2 (by decide)).symm
  | ⟨2, _⟩ => exact (((dat1 (VR3 m) c).arrAt_in 2 rfl _).trans (A_eq1 (VR3 m) c 2)).trans (X4_of_ne m c main_v4 (by decide)).symm
  | ⟨3, _⟩ => exact (((dat1 (VR3 m) c).arrAt_in 3 rfl _).trans (A_eq1 (VR3 m) c 3)).trans (X4_of_ne m c main_v6 (by decide)).symm
  | ⟨4, _⟩ => exact (((dat1 (VR3 m) c).arrAt_in 4 rfl _).trans (A_eq1 (VR3 m) c 4)).trans (X4_of_ne m c main_v5 (by decide)).symm
  | ⟨5, _⟩ => exact (((dat1 (VR3 m) c).arrAt_in 5 rfl _).trans (A_eq1 (VR3 m) c 5)).trans (X4_of_ne m c main_v7 (by decide)).symm
  | ⟨6, _⟩ => exact (X4_v8 m c).symm
theorem hrest1 (c : Dev nD) : ∀ b, b ∉ Finset.univ.image (Pipeline.arrRef spec1) → X4 m c b = VR3 m c b :=
  fun b hb => X4_of_ne m c b fun e => hb (Finset.mem_image.mpr ⟨6, Finset.mem_univ _, (by rw [e] : Pipeline.arrRef spec1 6 = b)⟩)

/-! ## The regions as segments -/

set_option backward.isDefEq.respectTransparency.types false in
/-- The first region: entered from every unscoped buffer at the first host stretch's results, left with its output
    array at the accumulated block. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (fun b => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the mask is widened, left with its output array at
    its 25 written blocks. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR3 m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The thread states chain: what a region leaves is what the next host stretch is entered from, and conversely. -/
theorem hpost0 (c : Dev nD) : (reg0 m).post c
    ⊢ iprop(StableHlo.held (c : Thread nD τ) (Pipeline.ucRefs τ sig) (Gen.V2 m (outs m) c) ∗ E (F := F) 1 c) := by
  rw [V2_eq]; exact .rfl
theorem hpre1 (c : Dev nD) : iprop(StableHlo.held (c : Thread nD τ) (Pipeline.ucRefs τ sig) (Gen.V3 m (outs m) c) ∗ E (F := F) 1 c)
    ⊢ (reg1 m).pre c := by
  rw [V3_eq]; exact .rfl
theorem hpost1 (c : Dev nD) : (reg1 m).post c
    ⊢ iprop(StableHlo.held (c : Thread nD τ) (Pipeline.ucRefs τ sig) (Gen.V4 m (outs m) c) ∗ E (F := F) 2 c) := by
  rw [V4_eq]; exact .rfl

set_option backward.isDefEq.respectTransparency.types false in
/-- THE RUN, at any float instance: from any memory with zero counters every weakly fair execution of the program
    terminates, nothing faulting, with the result array at the last contents' value for it and every argument array as
    launched. -/
theorem run_all : θ_run defs (onTc (τ := τ) (main (F := F))) ⟨m, fun _ => 0, ρ⟩ (fun r => ∀ c : Dev nD,
      r.2.mem ((c.tc : Thread nD τ).loc main_v9) = Gen.V5 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, hpost0 m c, hpre1 m c, hpost1 m c,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v9) = Gen.V5 m (outs m) c main_v9
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  unfold StableHlo.held
  iintro ⟨Hh, HSI⟩
  ihave Hr := (pointsTo_read_all (Pipeline.ucRefs τ sig) (fun b => ((c : Thread nD τ).1, b)) (Gen.V5 m (outs m) c) s') $$ [Hh HSI]
  · isplitl [Hh] <;> iassumption
  icases Hr with ⟨%h, HSI⟩
  imodintro
  isplitr
  · ipureintro
    exact ⟨h (Proc.devRef .tc main_v9) (Finset.mem_filter.mpr ⟨StableHlo.devRef_mem_tcRefs main_v9, by decide⟩),
      (h (Proc.devRef .tc main_arg0) (Finset.mem_filter.mpr ⟨StableHlo.devRef_mem_tcRefs main_arg0, by decide⟩)).trans (Gen.V5_main_arg0 m (outs m) c),
      (h (Proc.devRef .tc main_arg1) (Finset.mem_filter.mpr ⟨StableHlo.devRef_mem_tcRefs main_arg1, by decide⟩)).trans (Gen.V5_main_arg1 m (outs m) c),
      (h (Proc.devRef .tc main_arg2) (Finset.mem_filter.mpr ⟨StableHlo.devRef_mem_tcRefs main_arg2, by decide⟩)).trans (Gen.V5_main_arg2 m (outs m) c),
      (h (Proc.devRef .tc main_arg3) (Finset.mem_filter.mpr ⟨StableHlo.devRef_mem_tcRefs main_arg3, by decide⟩)).trans (Gen.V5_main_arg3 m (outs m) c),
      (h (Proc.devRef .tc main_arg4) (Finset.mem_filter.mpr ⟨StableHlo.devRef_mem_tcRefs main_arg4, by decide⟩)).trans (Gen.V5_main_arg4 m (outs m) c),
      (h (Proc.devRef .tc main_arg5) (Finset.mem_filter.mpr ⟨StableHlo.devRef_mem_tcRefs main_arg5, by decide⟩)).trans (Gen.V5_main_arg5 m (outs m) c),
      (h (Proc.devRef .tc main_arg6) (Finset.mem_filter.mpr ⟨StableHlo.devRef_mem_tcRefs main_arg6, by decide⟩)).trans (Gen.V5_main_arg6 m (outs m) c)⟩
  · iexact HSI

end Cert.Kernel.Hand

end
-- ==== Proof.KIRegion0.lean ====
/-
  The first kernel region: the one-hot matrix against the coefficient table, accumulated tile by tile.

  The grid has 50 points; point `t` stages rows 2000·t … 2000·t+1999 of the coefficient table (16 columns) and of
  the transposed one-hot matrix (1024 columns), and the single 16×1024 output block stays in its staging buffer from
  the first point to the last, where it is written back.  At the first point the body stores the tile's product
  over whatever the buffer held; at every later point it adds the tile's product to what the point before left.
  So the buffer after point `n` is a recursion on `n` (`acc0`), and that recursion is what the pipeline's proof data
  names for the output window.  Both conditions of the body are functions of the grid coordinate alone, and exactly
  one of them holds at every point, so no point is idle for the output window.
-/
import proofs.«176079_g88974542504030_cont_9to1c4b_294_10_alg».proof.Proof.Gen.KernelIdeal.Launch
import proofs.«176079_g88974542504030_cont_9to1c4b_294_10_alg».proof.Proof.Gen.KernelIdeal.Skeleton
import proofs.«176079_g88974542504030_cont_9to1c4b_294_10_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (both inputs are fetched at every point, their
    blocks tile their arrays, and the body only reads them). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- the body leaves the block in place, so the buffer holds what a fetch would put there: the block
  have hkeep : ∀ s, (cfg0.win 0).cut (cfg0.grid.coords s) (dat.after 0 s) = dat.blockOf 0 s := by
    intro s
    rw [hafter s]
    unfold Dat.blockOf iblk0
    rw [hA]
  rw [dat.before_in_eq_fetched 0 rfl (fun _ => rfl) (fun _ _ _ => rfl) hkeep t d]
  unfold Dat.fetched Dat.blockOf iblk0
  rw [hA]
  rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ s, (cfg0.win 1).cut (cfg0.grid.coords s) (dat.after 1 s) = dat.blockOf 1 s := by
    intro s
    rw [hafter s]
    unfold Dat.blockOf iblk0
    rw [hA]
  rw [dat.before_in_eq_fetched 1 rfl (fun _ => rfl) (fun _ _ _ => rfl) hkeep t d]
  unfold Dat.fetched Dat.blockOf iblk0
  rw [hA]
  rfl

/-! ## The body's accesses and what it leaves in the output block -/

abbrev rL0 : Rect S2000x16 := Rect.unit (s := S2000x16) ![0, 0] S2000x16.size inb_S2000x16_S2000x16_0_0
abbrev rR0 : Rect S2000x1024 := Rect.unit (s := S2000x1024) ![0, 0] S2000x1024.size inb_S2000x1024_S2000x1024_0_0
abbrev rO0 : Rect S16x1024 := Rect.unit (s := S16x1024) ![0, 0] S16x1024.size inb_S16x1024_S16x1024_0_0

/-- The output block after the FIRST point's body: the tile's product, stored whole. -/
def tileFirst (x0 : Vec F S2000x16 .f32) (x1 : Vec F S2000x1024 .f32) : Vec F S16x1024 .f32 :=
  View.canon [⟨rO0, k0_pay1 (View.ld x0 rL0) (View.ld x1 rR0)⟩]

/-- The output block after a LATER point's body: what the block held plus the tile's product, stored whole. -/
def tileNext (x0 : Vec F S2000x16 .f32) (x1 : Vec F S2000x1024 .f32) (acc : Vec F S16x1024 .f32) : Vec F S16x1024 .f32 :=
  View.canon [⟨rO0, k0_pay2 (View.ld x0 rL0) (View.ld x1 rR0) (View.ld acc rO0)⟩]

/-- The two conditions at every point of the grid, decided point by point. -/
private theorem cond0_grid : ∀ t : Fin grid0.N,
    (t.val = 0 → k0_cond1 (grid0.coords t) = 1#1 ∧ ¬ k0_cond2 (grid0.coords t) = 1#1)
      ∧ (t.val ≠ 0 → ¬ k0_cond1 (grid0.coords t) = 1#1 ∧ k0_cond2 (grid0.coords t) = 1#1) := by
  decide +kernel

/-- The two conditions as functions of the one coordinate's value. -/
private def cFirst (n : ℕ) : BitVec 1 :=
  Scalar.cmpi .ne (Scalar.extui (Scalar.cmpi .eq (BitVec.ofNat 32 n) 0#32) : BitVec 32) 0#32
private def cNext (n : ℕ) : BitVec 1 :=
  Scalar.cmpi .ne (Scalar.extui (Scalar.cmpi .sgt (BitVec.ofNat 32 n) 0#32) : BitVec 32) 0#32

/-- At every value the coordinate takes, one of the two holds. -/
private theorem cond0_cover : ∀ n : Fin 50, cFirst n.val = 1#1 ∨ cNext n.val = 1#1 := by
  decide +kernel

/-- Exactly one of the body's two conditions holds at each point: the first at point 0, the second after it. -/
theorem cond0_first (t : Fin cfg0.N) (h : t.val = 0) : k0_cond1 (grid0.coords t) = 1#1 ∧ ¬ k0_cond2 (grid0.coords t) = 1#1 :=
  (cond0_grid t).1 h
theorem cond0_next (t : Fin cfg0.N) (h : t.val ≠ 0) : ¬ k0_cond1 (grid0.coords t) = 1#1 ∧ k0_cond2 (grid0.coords t) = 1#1 :=
  (cond0_grid t).2 h
/-- So no point is idle for any window. -/
theorem live0 (w : Fin cfg0.W) (i : grid0.Coords) : cfg0.idle w i = false := by
  match w with
  | ⟨0, _⟩ => rfl
  | ⟨1, _⟩ => rfl
  | ⟨2, _⟩ =>
    show (!(k0_cond1 i == 1#1) && !(k0_cond2 i == 1#1)) = false
    have h1 : k0_cond1 i = cFirst (i 0).val := rfl
    have h2 : k0_cond2 i = cNext (i 0).val := rfl
    rcases cond0_cover (i 0) with h | h
    · rw [h1, h]; rfl
    · rw [h2, h]; simp

/-! ## The body's triples -/

/-- One store through the whole output rectangle covers the block. -/
private theorem cover_rO0 (p : rO0.shape.Idx → Elt F .f32) (y : S16x1024.Idx) :
    ∃ pc ∈ ([⟨rO0, p⟩] : List (View.Piece (Elt F) S16x1024 .f32)), y ∈ pc.1.set :=
  View.cover_of_tiled [⟨rO0, p⟩] S16x1024.size (by rfl) y

/-- At a point where only the first condition holds, the body on whole staging memrefs (the inputs' at `x0`, `x1`,
    the output's at anything) runs to the continuation holding the inputs as they were and the output at `tileFirst`. -/
theorem sound_kernel0_first (c : Dev nD) (E : Set ℕ) (i : grid0.Coords) (h1 : k0_cond1 i = 1#1) (h2 : ¬ k0_cond2 i = 1#1)
    (arg1 : Memref sig .tc .vmem S2000x16 .f32) (harg1 : arg1.IsWhole) (arg2 : Memref sig .tc .vmem S2000x1024 .f32) (harg2 : arg2.IsWhole)
    (arg3 : Memref sig .tc .vmem S16x1024 .f32) (harg3 : arg3.IsWhole)
    (x0 : Vec F S2000x16 .f32) (x1 : Vec F S2000x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileFirst x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr
    · ipureintro; rfl
    · iexact H0
  isplitl [H1]
  · iexists f1; isplitr
    · ipureintro; rfl
    · iexact H1
  iexists _; isplitr
  swap; · iexact H2
  ipureintro
  exact View.read_writes_eq_canon _ _ _ (cover_rO0 _)

/-- At a point where only the second condition holds, with the output's memref at `acc`, the body runs to the
    continuation holding the inputs as they were and the output at `tileNext … acc`. -/
theorem sound_kernel0_next (c : Dev nD) (E : Set ℕ) (i : grid0.Coords) (h1 : ¬ k0_cond1 i = 1#1) (h2 : k0_cond2 i = 1#1)
    (arg1 : Memref sig .tc .vmem S2000x16 .f32) (harg1 : arg1.IsWhole) (arg2 : Memref sig .tc .vmem S2000x1024 .f32) (harg2 : arg2.IsWhole)
    (arg3 : Memref sig .tc .vmem S16x1024 .f32) (harg3 : arg3.IsWhole)
    (x0 : Vec F S2000x16 .f32) (x1 : Vec F S2000x1024 .f32) (acc : Vec F S16x1024 .f32) (K : PUnit → sProp 𝕄) :
    iprop(owns (c : Thread nD τ) arg1 fullShare x0 ∗ owns (c : Thread nD τ) arg2 fullShare x1 ∗ owns (c : Thread nD τ) arg3 fullShare acc
        ∗ (iprop(owns (c : Thread nD τ) arg1 fullShare x0 ∗ owns (c : Thread nD τ) arg2 fullShare x1
            ∗ owns (c : Thread nD τ) arg3 fullShare (tileNext x0 x1 acc)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr
    · ipureintro; rfl
    · iexact H0
  isplitl [H1]
  · iexists f1; isplitr
    · ipureintro; rfl
    · iexact H1
  iexists _; isplitr
  swap; · iexact H2
  ipureintro
  exact View.read_writes_eq_canon _ _ _ (cover_rO0 _)

/-! ## The accumulator and the pipeline's proof data -/

/-- THE ACCUMULATION: what the output block holds after the body at point `n`. -/
def acc0 (c : Dev nD) : (n : ℕ) → n < cfg0.N → Vec F S16x1024 .f32
  | 0, hn => tileFirst (iblk0 V c 0 ⟨0, hn⟩) (iblk0 V c 1 ⟨0, hn⟩)
  | n + 1, hn => tileNext (iblk0 V c 0 ⟨n + 1, hn⟩) (iblk0 V c 1 ⟨n + 1, hn⟩) (acc0 c n (Nat.lt_of_succ_lt hn))

theorem acc0_zero (c : Dev nD) (t : Fin cfg0.N) (h : t.val = 0) :
    acc0 V c t.val t.isLt = tileFirst (iblk0 V c 0 t) (iblk0 V c 1 t) := by
  obtain ⟨n, hn⟩ := t
  cases n with
  | zero => rfl
  | succ n => exact absurd h (Nat.succ_ne_zero n)
theorem acc0_pos (c : Dev nD) (t : Fin cfg0.N) (h : t.val ≠ 0) :
    acc0 V c t.val t.isLt = tileNext (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-- The proof data of pipeline 0 on core `c`: the arrays as the region finds them; after the body at point `t` each
    input's buffer at its block and the output's at the accumulation; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the output's buffer holds what the point before left: it is written back at the last point
    only, it is uncut, and no point is idle. -/
theorem before0_2_next (c : Dev nD) (t : Fin cfg0.N) (h : t.val ≠ 0) (d) :
    (dat0 V c).before 2 t d = acc0 V c (t.val - 1) (Nat.lt_of_le_of_lt (Nat.sub_le _ _) t.isLt) := by
  have hN : t.val < 50 := lt_of_lt_of_eq t.isLt (show cfg0.N = 50 from N_0)
  -- the point before is not the last, so it did not write the block back
  have hfl : (cfg0.win 2).flush ⟨t.val - 1, Nat.lt_of_le_of_lt (Nat.sub_le _ _) t.isLt⟩ = false := by
    apply Bool.eq_false_iff.mpr
    intro hf
    have h49 := (flush0_2 _).mp hf
    dsimp only at h49
    omega
  rw [Dat.before_out_kept _ 2 rfl t h hfl (fun i => live0 2 i) (fun _ _ => rfl)]
  exact after0_2 V c _

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · -- the first point: the output's buffer holds anything, and the body stores the tile's product over it
    rw [acc0_zero V c t h0]
    obtain ⟨hc1, hc2⟩ := cond0_first t h0
    iintro ⟨HΦ, Ho, ⟨%d0, H0⟩, ⟨%d1, H1⟩, ⟨%d2, H2⟩⟩
    iapply (sound_kernel0_first c Set.univ (grid0.coords t) hc1 hc2 _ _ _ _ _ _ (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · -- a later point: the output's buffer holds what the point before left, and the body adds the tile's product
    rw [acc0_pos V c t h0]
    simp only [before0_2_next V c t h0]
    obtain ⟨hc1, hc2⟩ := cond0_next t h0
    iintro ⟨HΦ, Ho, ⟨%d0, H0⟩, ⟨%d1, H1⟩, ⟨%d2, H2⟩⟩
    iapply (sound_kernel0_next c Set.univ (grid0.coords t) hc1 hc2 _ _ _ _ _ _ (iblk0 V c 0 t) (iblk0 V c 1 t)
      (acc0 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  -- no point is idle for any window, so each buffer is handed back at what the body leaves
  rw [live0 2 (cfg0.grid.coords t)]
  exact sound_body0 V c t

end Cert.KernelIdeal.Hand

end
-- ==== Proof.KIRegion1.lean ====
/-
  The second kernel region: the utilities, forty items at a time.

  The grid has 25 points; point `t` stages items 40·t … 40·t+39 of the two transposed feature arrays, of the
  item coefficients, of the intercepts and of the widened availability mask, beside the whole 16×1024 block of
  user coefficients the first region produced (staged once, at the first point).  The body reads all six, forms
  Σ_p (x_u·coef_u + x_i·w) + intercept, selects against the fill value by the mask, and stores the 40×1024 block
  whole; every point writes its block back.  Nothing is carried from one point to the next.
-/
import proofs.«176079_g88974542504030_cont_9to1c4b_294_10_alg».proof.Proof.Gen.KernelIdeal.Launch
import proofs.«176079_g88974542504030_cont_9to1c4b_294_10_alg».proof.Proof.Gen.KernelIdeal.Skeleton
import proofs.«176079_g88974542504030_cont_9to1c4b_294_10_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the block of user
    coefficients is fetched at the first point only, and its index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  -- the buffer holds what a fetch at this point would put there, and that is the block read off the array
  refine (dat.before_in_eq_fetched 0 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  -- the buffer holds what a fetch at this point would put there, and that is the block read off the array
  refine (dat.before_in_eq_fetched 1 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  -- the buffer holds what a fetch at this point would put there, and that is the block read off the array
  refine (dat.before_in_eq_fetched 2 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  -- the buffer holds what a fetch at this point would put there, and that is the block read off the array
  refine (dat.before_in_eq_fetched 3 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  -- the buffer holds what a fetch at this point would put there, and that is the block read off the array
  refine (dat.before_in_eq_fetched 4 rfl (fun _ => rfl) (fun _ _ _ => rfl) ?_ t d).trans ?_
  · intro t'
    rw [hafter]; unfold Dat.blockOf iblk1; rw [hA]; try rfl
  · unfold Dat.fetched Dat.blockOf iblk1; rw [hA]; try rfl
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  -- the buffer holds what a fetch at this point would put there, and that is the block read off the array
  refine (dat.before_in_eq_fetched 5 rfl (fun _ => rfl) (fun _ _ _ => rfl) ?_ t d).trans ?_
  · intro t'
    rw [hafter]; unfold Dat.blockOf iblk1; rw [hA]; try rfl
  · unfold Dat.fetched Dat.blockOf iblk1; rw [hA]; try rfl

/-! ## The body's accesses and what it leaves in the output block -/

abbrev r1_0 : Rect S40x16x1024 := Rect.unit (s := S40x16x1024) ![0, 0, 0] S40x16x1024.size inb_S40x16x1024_S40x16x1024_0_0_0
abbrev r1_2 : Rect S40x16x1 := Rect.unit (s := S40x16x1) ![0, 0, 0] S40x16x1.size inb_S40x16x1_S40x16x1_0_0_0
abbrev r1_3 : Rect S16x1024 := Rect.unit (s := S16x1024) ![0, 0] S16x1024.size inb_S16x1024_S16x1024_0_0
abbrev r1_4 : Rect S40x1x1 := Rect.unit (s := S40x1x1) ![0, 0, 0] S40x1x1.size inb_S40x1x1_S40x1x1_0_0_0
abbrev r1_5 : Rect S40x1024 := Rect.unit (s := S40x1024) ![0, 0] S40x1024.size inb_S40x1024_S40x1024_0_0

/-- The output block after the body, from the six input blocks: its one store, whole. (The payload takes its loads in
    the body's order: x_u's block, the item coefficients, x_i's block, the user coefficients, the intercepts, the mask.) -/
def utilBlock (x0 : Vec F S40x16x1024 .f32) (x1 : Vec F S40x16x1024 .f32) (x2 : Vec F S40x16x1 .f32) (x3 : Vec F S16x1024 .f32) (x4 : Vec F S40x1x1 .f32) (x5 : Vec F S40x1024 .i32) : Vec F S40x1024 .f32 :=
  View.canon [⟨r1_5, k1_pay1 (View.ld x0 r1_0) (View.ld x2 r1_2) (View.ld x1 r1_0) (View.ld x3 r1_3) (View.ld x4 r1_4) (View.ld x5 r1_5)⟩]

/-! ## The body's triple -/

/-- The one store is of the whole 40×1024 block, so it covers it. -/
private theorem cover1_6 (p0 : Vec F S40x1024 .f32) (y : S40x1024.Idx) :
    ∃ pc ∈ ([⟨r1_5, p0⟩] : List (View.Piece (Elt F) S40x1024 .f32)), y ∈ pc.1.set :=
  View.cover_of_tiled [⟨r1_5, p0⟩] S40x1024.size (by rfl) y

set_option maxHeartbeats 1000000 in
theorem sound_kernel1 (c : Dev nD) (E : Set ℕ) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (utilBlock x0 x1 x2 x3 x4 x5)) -∗ K ⟨⟩))
      ⊢ wp frame (wpE (defs₀ (F := F)) Variants.none c none) E (cc1__utility_kernel i arg1 harg1 arg2 harg2 arg3 harg3 arg4 harg4 arg5 harg5 arg6 harg6 arg7 harg7) K := by
  simp only [cc1__utility_kernel_eq_skeleton]; unfold cc1__utility_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- seven loads (the last one's value is dropped), then the store of the payload over the whole output block
  sl_exec
  sl_step
  iapply Hk
  -- the six inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output reads as the single covering store leaves it
  iexists _; isplitr
  swap; · iexact H6
  ipureintro
  exact View.read_writes_eq_canon _ _ _ (cover1_6 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => utilBlock (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = utilBlock (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- every input's buffer holds its block; the invariant and what is owed do not change over the body
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  -- the obligation's products over the seven windows, written out, are the body's pre- and postcondition
  rw [bigSep_W1, bigSep_W1]
  exact sound_body1 V c t

end Cert.KernelIdeal.Hand

end
-- ==== Proof.KIRun.lean ====
/-
  The whole program as one run: host operations, the first kernel region, one host operation, the second kernel
  region, one host operation.

  Between two items every unscoped buffer of the core is held whole at named contents: the launch memory, then each
  host stretch's results over it, and after a kernel region the region's output array at what its write-backs leave
  (the first region's one write-back of the accumulated block at its last point; the second region's 25 blocks),
  everything else as the region found it.  A region is entered by splitting its windows' arrays off the held buffers
  and left by putting them back; the generator register rides along and nothing is ever owed.  At the end each
  argument array and the result array are read back off the last contents.
-/
import proofs.«176079_g88974542504030_cont_9to1c4b_294_10_alg».proof.Proof.KIRegion0
import proofs.«176079_g88974542504030_cont_9to1c4b_294_10_alg».proof.Proof.KIRegion1
import proofs.«176079_g88974542504030_cont_9to1c4b_294_10_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the first region is entered from, read at the TensorCore's references. -/
abbrev VR1 : (c : Dev nD) → (b : Ref sig .tc) → Buf (Elt F) ((c : Thread nD τ).loc b) := fun c b => Gen.V1 m c b
/-- What the first region leaves in its output array: the accumulated block, written back once. -/
def o2 (c : Dev nD) : Buf (Elt F) ((c : Thread nD τ).loc main_v6) := (dat0 (VR1 m) c).arrAt 2 cfg0.N
/-- The buffers after the first region: its output array at `o2`, every other buffer as entered. -/
def X2 (c : Dev nD) : Valuation τ sig (Elt F) := Function.update (Gen.V1 m c) main_v6 (o2 m c)
/-- After the host operation between the regions (the mask widened to words). -/
def X3 (c : Dev nD) : Valuation τ sig (Elt F) := StableHlo.after hostOps1 (X2 m c)
abbrev VR3 : (c : Dev nD) → (b : Ref sig .tc) → Buf (Elt F) ((c : Thread nD τ).loc b) := fun c b => X3 m c b
/-- What the second region leaves in its output array: its 25 blocks written back. -/
def o4 (c : Dev nD) : Buf (Elt F) ((c : Thread nD τ).loc main_v8) := (dat1 (VR3 m) c).arrAt 6 cfg1.N
/-- The buffers after the second region. -/
def X4 (c : Dev nD) : Valuation τ sig (Elt F) := Function.update (X3 m c) main_v8 (o4 m c)

/-- The regions' written arrays, as the unknowns the host side's contents are stated over. -/
def outs : Gen.Outs (F := F) := fun _ r c => X4 m c r

theorem X2_v6 (c : Dev nD) : X2 m c main_v6 = o2 m c := by unfold X2; exact Function.update_self _ _ _
theorem X2_of_ne (c : Dev nD) (b : Ref sig .tc) (h : b ≠ main_v6) : X2 m c b = Gen.V1 m c b := by
  unfold X2; exact Function.update_of_ne (StableHlo.devRef_ne_of_ne h) _ _
theorem X3_of (c : Dev nD) (r : Ref sig .tc) (h : r ∉ Gen.hostOps1_W) : X3 m c r = X2 m c r :=
  StableHlo.after_of_writes_sub hostOps1 _ Gen.hostOps1_writes h
theorem X4_v8 (c : Dev nD) : X4 m c main_v8 = o4 m c := by unfold X4; exact Function.update_self _ _ _
theorem X4_of_ne (c : Dev nD) (b : Ref sig .tc) (h : b ≠ main_v8) : X4 m c b = X3 m c b := by
  unfold X4; exact Function.update_of_ne (StableHlo.devRef_ne_of_ne h) _ _

theorem outs_v6 (c : Dev nD) : outs m 2 main_v6 c = o2 m c := by
  unfold outs
  rw [X4_of_ne m c main_v6 (by decide), X3_of m c main_v6 (by decide), X2_v6]
theorem outs_v8 (c : Dev nD) : outs m 4 main_v8 c = o4 m c := by
  unfold outs; exact X4_v8 m c

/-- The host side's contents, at these unknowns, are the ones named here. -/
theorem V2_eq (c : Dev nD) : Gen.V2 m (outs m) c = X2 m c := by
  unfold X2; dsimp only [Gen.V2]; rw [outs_v6]
theorem V3_eq (c : Dev nD) : Gen.V3 m (outs m) c = X3 m c := by
  unfold X3; dsimp only [Gen.V3]; rw [V2_eq]
theorem V4_eq (c : Dev nD) : Gen.V4 m (outs m) c = X4 m c := by
  unfold X4; dsimp only [Gen.V4]; rw [outs_v8, V3_eq]

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## What each region's exit puts back -/

theorem hF0 (c : Dev nD) (w : Fin cfg0.W) : (dat0 (VR1 m) c).arrAt w cfg0.N = X2 m c (Pipeline.arrRef spec0 w) := by
  match w with
  | ⟨0, _⟩ => exact (((dat0 (VR1 m) c).arrAt_in 0 rfl _).trans (A_eq0 (VR1 m) c 0)).trans (X2_of_ne m c main_arg5 (by decide)).symm
  | ⟨1, _⟩ => exact (((dat0 (VR1 m) c).arrAt_in 1 rfl _).trans (A_eq0 (VR1 m) c 1)).trans (X2_of_ne m c main_v0 (by decide)).symm
  | ⟨2, _⟩ => exact (X2_v6 m c).symm
theorem hrest0 (c : Dev nD) : ∀ b, b ∉ Finset.univ.image (Pipeline.arrRef spec0) → X2 m c b = VR1 m c b :=
  fun b hb => X2_of_ne m c b fun e => hb (Finset.mem_image.mpr ⟨2, Finset.mem_univ _, (by rw [e] : Pipeline.arrRef spec0 2 = b)⟩)
theorem hF1 (c : Dev nD) (w : Fin cfg1.W) : (dat1 (VR3 m) c).arrAt w cfg1.N = X4 m c (Pipeline.arrRef spec1 w) := by
  match w with
  | ⟨0, _⟩ => exact (((dat1 (VR3 m) c).arrAt_in 0 rfl _).trans (A_eq1 (VR3 m) c 0)).trans (X4_of_ne m c main_v1 (by decide)).symm
  | ⟨1, _⟩ => exact (((dat1 (VR3 m) c).arrAt_in 1 rfl _).trans (A_eq1 (VR3 m) c 1)).trans (X4_of_ne m c main_v2 (by decide)).symm
  | ⟨2, _⟩ => exact (((dat1 (VR3 m) c).arrAt_in 2 rfl _).trans (A_eq1 (VR3 m) c 2)).trans (X4_of_ne m c main_v4 (by decide)).symm
  | ⟨3, _⟩ => exact (((dat1 (VR3 m) c).arrAt_in 3 rfl _).trans (A_eq1 (VR3 m) c 3)).trans (X4_of_ne m c main_v6 (by decide)).symm
  | ⟨4, _⟩ => exact (((dat1 (VR3 m) c).arrAt_in 4 rfl _).trans (A_eq1 (VR3 m) c 4)).trans (X4_of_ne m c main_v5 (by decide)).symm
  | ⟨5, _⟩ => exact (((dat1 (VR3 m) c).arrAt_in 5 rfl _).trans (A_eq1 (VR3 m) c 5)).trans (X4_of_ne m c main_v7 (by decide)).symm
  | ⟨6, _⟩ => exact (X4_v8 m c).symm
theorem hrest1 (c : Dev nD) : ∀ b, b ∉ Finset.univ.image (Pipeline.arrRef spec1) → X4 m c b = VR3 m c b :=
  fun b hb => X4_of_ne m c b fun e => hb (Finset.mem_image.mpr ⟨6, Finset.mem_univ _, (by rw [e] : Pipeline.arrRef spec1 6 = b)⟩)

/-! ## The regions as segments -/

set_option backward.isDefEq.respectTransparency.types false in
/-- The first region: entered from every unscoped buffer at the first host stretch's results, left with its output
    array at the accumulated block. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (fun b => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the mask is widened, left with its output array at
    its 25 written blocks. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR3 m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The thread states chain: what a region leaves is what the next host stretch is entered from, and conversely. -/
theorem hpost0 (c : Dev nD) : (reg0 m).post c
    ⊢ iprop(StableHlo.held (c : Thread nD τ) (Pipeline.ucRefs τ sig) (Gen.V2 m (outs m) c) ∗ E (F := F) 1 c) := by
  rw [V2_eq]; exact .rfl
theorem hpre1 (c : Dev nD) : iprop(StableHlo.held (c : Thread nD τ) (Pipeline.ucRefs τ sig) (Gen.V3 m (outs m) c) ∗ E (F := F) 1 c)
    ⊢ (reg1 m).pre c := by
  rw [V3_eq]; exact .rfl
theorem hpost1 (c : Dev nD) : (reg1 m).post c
    ⊢ iprop(StableHlo.held (c : Thread nD τ) (Pipeline.ucRefs τ sig) (Gen.V4 m (outs m) c) ∗ E (F := F) 2 c) := by
  rw [V4_eq]; exact .rfl

set_option backward.isDefEq.respectTransparency.types false in
/-- THE RUN, at any float instance: from any memory with zero counters every weakly fair execution of the program
    terminates, nothing faulting, with the result array at the last contents' value for it and every argument array as
    launched. -/
theorem run_all : θ_run defs (onTc (τ := τ) (main (F := F))) ⟨m, fun _ => 0, ρ⟩ (fun r => ∀ c : Dev nD,
      r.2.mem ((c.tc : Thread nD τ).loc main_v9) = Gen.V5 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, hpost0 m c, hpre1 m c, hpost1 m c,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v9) = Gen.V5 m (outs m) c main_v9
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  unfold StableHlo.held
  iintro ⟨Hh, HSI⟩
  ihave Hr := (pointsTo_read_all (Pipeline.ucRefs τ sig) (fun b => ((c : Thread nD τ).1, b)) (Gen.V5 m (outs m) c) s') $$ [Hh HSI]
  · isplitl [Hh] <;> iassumption
  icases Hr with ⟨%h, HSI⟩
  imodintro
  isplitr
  · ipureintro
    exact ⟨h (Proc.devRef .tc main_v9) (Finset.mem_filter.mpr ⟨StableHlo.devRef_mem_tcRefs main_v9, by decide⟩),
      (h (Proc.devRef .tc main_arg0) (Finset.mem_filter.mpr ⟨StableHlo.devRef_mem_tcRefs main_arg0, by decide⟩)).trans (Gen.V5_main_arg0 m (outs m) c),
      (h (Proc.devRef .tc main_arg1) (Finset.mem_filter.mpr ⟨StableHlo.devRef_mem_tcRefs main_arg1, by decide⟩)).trans (Gen.V5_main_arg1 m (outs m) c),
      (h (Proc.devRef .tc main_arg2) (Finset.mem_filter.mpr ⟨StableHlo.devRef_mem_tcRefs main_arg2, by decide⟩)).trans (Gen.V5_main_arg2 m (outs m) c),
      (h (Proc.devRef .tc main_arg3) (Finset.mem_filter.mpr ⟨StableHlo.devRef_mem_tcRefs main_arg3, by decide⟩)).trans (Gen.V5_main_arg3 m (outs m) c),
      (h (Proc.devRef .tc main_arg4) (Finset.mem_filter.mpr ⟨StableHlo.devRef_mem_tcRefs main_arg4, by decide⟩)).trans (Gen.V5_main_arg4 m (outs m) c),
      (h (Proc.devRef .tc main_arg5) (Finset.mem_filter.mpr ⟨StableHlo.devRef_mem_tcRefs main_arg5, by decide⟩)).trans (Gen.V5_main_arg5 m (outs m) c),
      (h (Proc.devRef .tc main_arg6) (Finset.mem_filter.mpr ⟨StableHlo.devRef_mem_tcRefs main_arg6, by decide⟩)).trans (Gen.V5_main_arg6 m (outs m) c)⟩
  · iexact HSI

end Cert.KernelIdeal.Hand

end
-- ==== Proof.Spec.lean ====
/-
  The function both programs compute, stated once over the argument arrays, entry by entry on the extended reals.

  For a batch row `b` and an item `n` the utility is
      Σ_p ( x_u[b,n,p] · coef_u[n,p]  +  x_i[b,n,p] · w[b,p] )  +  intercept[n,0],     w[b,p] = Σ_u coef_i[u,p] · onehot[b,u],
  kept where the availability bit is set and replaced by the fill word's value elsewhere.  The inner sum `w` is the
  one-hot row times the coefficient table, summed over ALL users at once; a program that adds it up tile by tile, or
  that splits the sum over `p` into two sums, computes the same extended real, because addition of extended reals is
  commutative and associative (no distributivity is used anywhere, so no finiteness either).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The value the fill word `-1e20` denotes. -/
abbrev fill : EReal := Ideal.ofBits .f32 0xE0AD78EC#32

/-- The user-specific coefficient of feature `p` for batch row `b`: the one-hot row against the coefficient table,
    summed over every user. -/
def userCoef (onehot : FVec Ideal ⟨2, ![1024, 100000]⟩ .f32) (coefI : FVec Ideal ⟨2, ![100000, 16]⟩ .f32)
    (b : Fin 1024) (p : Fin 16) : EReal :=
  ∑ u : Fin 100000, coefI (ix2 u p) * onehot (ix2 b u)

/-- The unmasked utility of item `n` for batch row `b`. -/
def utility (xu xi : FVec Ideal ⟨3, ![1024, 1000, 16]⟩ .f32) (onehot : FVec Ideal ⟨2, ![1024, 100000]⟩ .f32)
    (coefU : FVec Ideal ⟨2, ![1000, 16]⟩ .f32) (coefI : FVec Ideal ⟨2, ![100000, 16]⟩ .f32)
    (icpt : FVec Ideal ⟨2, ![1000, 1]⟩ .f32) (b : Fin 1024) (n : Fin 1000) : EReal :=
  (∑ p : Fin 16, (xu (ix3 b n p) * coefU (ix2 n p) + xi (ix3 b n p) * userCoef onehot coefI b p)) + icpt (ix2 n 0)

/-- The result array: the utility where the item is available, the fill value elsewhere. -/
def G (xu xi : FVec Ideal ⟨3, ![1024, 1000, 16]⟩ .f32) (onehot : FVec Ideal ⟨2, ![1024, 100000]⟩ .f32)
    (avail : IVec ⟨2, ![1024, 1000]⟩ 1)
    (coefU : FVec Ideal ⟨2, ![1000, 16]⟩ .f32) (coefI : FVec Ideal ⟨2, ![100000, 16]⟩ .f32)
    (icpt : FVec Ideal ⟨2, ![1000, 1]⟩ .f32) : FVec Ideal ⟨2, ![1024, 1000]⟩ .f32 :=
  fun j => Scalar.select (avail j) (utility xu xi onehot coefU coefI icpt (j 0) (j 1)) fill

theorem G_apply (xu xi : FVec Ideal ⟨3, ![1024, 1000, 16]⟩ .f32) (onehot : FVec Ideal ⟨2, ![1024, 100000]⟩ .f32)
    (avail : IVec ⟨2, ![1024, 1000]⟩ 1)
    (coefU : FVec Ideal ⟨2, ![1000, 16]⟩ .f32) (coefI : FVec Ideal ⟨2, ![100000, 16]⟩ .f32)
    (icpt : FVec Ideal ⟨2, ![1000, 1]⟩ .f32) (b : Fin 1024) (n : Fin 1000) :
    G xu xi onehot avail coefU coefI icpt (ix2 b n)
      = Scalar.select (avail (ix2 b n)) (utility xu xi onehot coefU coefI icpt b n) fill := rfl

end Cert.Spec

end
-- ==== Proof.KIValue0.lean ====
/-
  What the first kernel region writes, at the ideal instance: entry (p, b) of its 16×1024 output array is the sum over
  ALL 100000 users of coef_i[u, p] · onehotᵀ[u, b].

  Point `t` of the grid contributes the 2000 users of its tile: its product into a zero accumulator is the plain sum
  over the tile's rows (a matrix product contracted over both operands' first axis), the first point stores it and
  each later point adds it to what was there.  So after point `n` the block holds the sum over the first 2000·(n+1)
  users, by induction on `n`; sums of extended reals may be regrouped freely (a commutative monoid), so the 50 tiles'
  sums are the one sum over all users.  The block is written back once, after the last point, and covers the array.
-/
import proofs.«176079_g88974542504030_cont_9to1c4b_294_10_alg».proof.Proof.KIRegion0
import proofs.«176079_g88974542504030_cont_9to1c4b_294_10_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The two operand arrays of the region as plain arrays of extended reals. -/
abbrev coefTab (c : Dev nD) : FVec Ideal S100000x16 .f32 := V c main_arg5
abbrev onehotT (c : Dev nD) : FVec Ideal S100000x1024 .f32 := V c main_v0

/-- The sum over all users. -/
def userSum (c : Dev nD) : FVec Ideal S16x1024 .f32 :=
  fun j => ∑ u : Fin 100000, coefTab V c (ix2 u (j 0)) * onehotT V c (ix2 u (j 1))

/-! ## The tile's product at an entry -/

/-- The zero offsets, however they are spelt. -/
private theorem zeros2 : (![0, 0] : Fin 2 → Nat) = fun _ => 0 := funext fun a => by fin_cases a <;> rfl

/-- The left operand is read at (contraction position, output row): its first axis is the contracted one. -/
private theorem lhs_tile_0 (i : S16x1024.Idx) (q : dot_S2000x16_S2000x1024_S16x1024_0_0_1_1_n_n.contr.Idx) :
    (dot_S2000x16_S2000x1024_S16x1024_0_0_1_1_n_n.lhsIdx i q 0).val = (q ⟨0, by decide⟩).val :=
  dot_S2000x16_S2000x1024_S16x1024_0_0_1_1_n_n.lhsIdx_val_of_single rfl i q
private theorem lhs_tile_1 (i : S16x1024.Idx) (q : dot_S2000x16_S2000x1024_S16x1024_0_0_1_1_n_n.contr.Idx) :
    (dot_S2000x16_S2000x1024_S16x1024_0_0_1_1_n_n.lhsIdx i q 1).val = (i 0).val := by
  unfold DotDims.lhsIdx
  rw [dif_neg (show ¬(1 : Fin S2000x16.rank) ∈ dot_S2000x16_S2000x1024_S16x1024_0_0_1_1_n_n.lhsBatch by decide), dif_pos (show (1 : Fin S2000x16.rank) ∈ dot_S2000x16_S2000x1024_S16x1024_0_0_1_1_n_n.lhsNonContracting by decide)]
  rfl
/-- The right operand is read at (contraction position, output column): its first axis is the contracted one too. -/
private theorem rhs_tile_0 (i : S16x1024.Idx) (q : dot_S2000x16_S2000x1024_S16x1024_0_0_1_1_n_n.contr.Idx) :
    (dot_S2000x16_S2000x1024_S16x1024_0_0_1_1_n_n.rhsIdx i q 0).val = (q ⟨0, by decide⟩).val :=
  dot_S2000x16_S2000x1024_S16x1024_0_0_1_1_n_n.rhsIdx_val_of_single rfl i q
private theorem rhs_tile_1 (i : S16x1024.Idx) (q : dot_S2000x16_S2000x1024_S16x1024_0_0_1_1_n_n.contr.Idx) :
    (dot_S2000x16_S2000x1024_S16x1024_0_0_1_1_n_n.rhsIdx i q 1).val = (i 1).val := by
  unfold DotDims.rhsIdx
  rw [dif_neg (show ¬(1 : Fin S2000x1024.rank) ∈ dot_S2000x16_S2000x1024_S16x1024_0_0_1_1_n_n.rhsBatch by decide), dif_pos (show (1 : Fin S2000x1024.rank) ∈ dot_S2000x16_S2000x1024_S16x1024_0_0_1_1_n_n.rhsNonContracting by decide)]
  rfl

/-- The tile's product into the zero accumulator, at entry (p, b): the sum over the tile's 2000 rows. -/
private theorem pay1_apply (x0 : FVec Ideal S2000x16 .f32) (x1 : FVec Ideal S2000x1024 .f32) (p : Fin 16) (b : Fin 1024) :
    k0_pay1 (F := Ideal) x0 x1 (ix2 p b) = ∑ k : Fin 2000, x0 (ix2 k p) * x1 (ix2 k b) := by
  unfold k0_pay1
  rw [shapeCast_self]
  refine (Ideal.matmul_constant_zero_apply dot_S2000x16_S2000x1024_S16x1024_0_0_1_1_n_n none x0 x1 (ix2 p b)).trans ?_
  rw [← Equiv.sum_comp (contrEquiv1 dot_S2000x16_S2000x1024_S16x1024_0_0_1_1_n_n 2000 rfl rfl).symm]
  refine Finset.sum_congr rfl fun k _ => ?_
  have hk := contrEquiv1_symm_val dot_S2000x16_S2000x1024_S16x1024_0_0_1_1_n_n 2000 rfl rfl k
  have el : dot_S2000x16_S2000x1024_S16x1024_0_0_1_1_n_n.lhsIdx (ix2 p b) ((contrEquiv1 dot_S2000x16_S2000x1024_S16x1024_0_0_1_1_n_n 2000 rfl rfl).symm k) = ix2 k p := funext fun a => Fin.ext (by
    match a with
    | ⟨0, _⟩ => exact (lhs_tile_0 _ _).trans hk
    | ⟨1, _⟩ => exact lhs_tile_1 _ _)
  have er : dot_S2000x16_S2000x1024_S16x1024_0_0_1_1_n_n.rhsIdx (ix2 p b) ((contrEquiv1 dot_S2000x16_S2000x1024_S16x1024_0_0_1_1_n_n 2000 rfl rfl).symm k) = ix2 k b := funext fun a => Fin.ext (by
    match a with
    | ⟨0, _⟩ => exact (rhs_tile_0 _ _).trans hk
    | ⟨1, _⟩ => exact rhs_tile_1 _ _)
  rw [el, er]

/-- The first point's block is the tile's product. -/
private theorem tileFirst_apply (x0 : Vec Ideal S2000x16 .f32) (x1 : Vec Ideal S2000x1024 .f32) (p : Fin 16) (b : Fin 1024) :
    tileFirst (F := Ideal) x0 x1 (ix2 p b) = ∑ k : Fin 2000, x0 (ix2 k p) * x1 (ix2 k b) := by
  unfold tileFirst
  rw [View.canon_unit_zero zeros2]
  simp only [View.ld_unit_zero (S := S2000x16) zeros2, View.ld_unit_zero (S := S2000x1024) zeros2]
  exact pay1_apply x0 x1 p b

/-- A later point's block is what the block held plus the tile's product. -/
private theorem tileNext_apply (x0 : Vec Ideal S2000x16 .f32) (x1 : Vec Ideal S2000x1024 .f32) (acc : Vec Ideal S16x1024 .f32)
    (p : Fin 16) (b : Fin 1024) :
    tileNext (F := Ideal) x0 x1 acc (ix2 p b) = acc (ix2 p b) + ∑ k : Fin 2000, x0 (ix2 k p) * x1 (ix2 k b) := by
  unfold tileNext
  rw [View.canon_unit_zero zeros2]
  simp only [View.ld_unit_zero (S := S2000x16) zeros2, View.ld_unit_zero (S := S2000x1024) zeros2,
    View.ld_unit_zero (S := S16x1024) zeros2]
  unfold k0_pay2
  rw [shapeCast_self]
  show acc (ix2 p b) + k0_pay1 (F := Ideal) x0 x1 (ix2 p b) = _
  rw [pay1_apply]

/-! ## A tile's rows in the arrays -/

/-- The printed index maps, decided over the grid: point t's input blocks start at row 2000·t, column 0, and the
    output's block is always the one at (0, 0). -/
private theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The two input tiles at point t, as blocks of their literal shapes. -/
private abbrev coefTile (c : Dev nD) (t : Fin cfg0.N) : Vec Ideal S2000x16 .f32 := iblk0 (F := Ideal) V c 0 t
private abbrev onehotTile (c : Dev nD) (t : Fin cfg0.N) : Vec Ideal S2000x1024 .f32 := iblk0 (F := Ideal) V c 1 t

/-- Entry (k, p) of the coefficient tile at point t is row 2000·t + k of the table. -/
private theorem coefTile_apply (c : Dev nD) (t : Fin cfg0.N) (k : Fin 2000) (p : Fin 16) (h : 2000 * t.val + k.val < 100000) :
    coefTile V c t (ix2 k p) = coefTab V c (ix2 ⟨2000 * t.val + k.val, h⟩ p) := by
  obtain ⟨e0, e1, -⟩ := idx_facts0 t
  show V c main_arg5 (((cfg0.win 0).blk t).view.emb (ix2 k p)) = V c main_arg5 (ix2 ⟨2000 * t.val + k.val, h⟩ p)
  congr 1
  funext a
  apply Fin.ext
  match a with
  | ⟨0, _⟩ => show win0_0.index t (0 : Fin 2) * 2000 + 1 * k.val = 2000 * t.val + k.val; omega
  | ⟨1, _⟩ => show win0_0.index t (1 : Fin 2) * 16 + 1 * p.val = p.val; omega

/-- Entry (k, b) of the one-hot tile at point t is row 2000·t + k of the transposed one-hot matrix. -/
private theorem onehotTile_apply (c : Dev nD) (t : Fin cfg0.N) (k : Fin 2000) (b : Fin 1024) (h : 2000 * t.val + k.val < 100000) :
    onehotTile V c t (ix2 k b) = onehotT V c (ix2 ⟨2000 * t.val + k.val, h⟩ b) := by
  obtain ⟨-, -, e0, e1, -⟩ := idx_facts0 t
  show V c main_v0 (((cfg0.win 1).blk t).view.emb (ix2 k b)) = V c main_v0 (ix2 ⟨2000 * t.val + k.val, h⟩ b)
  congr 1
  funext a
  apply Fin.ext
  match a with
  | ⟨0, _⟩ => show win0_1.index t (0 : Fin 2) * 2000 + 1 * k.val = 2000 * t.val + k.val; omega
  | ⟨1, _⟩ => show win0_1.index t (1 : Fin 2) * 1024 + 1 * b.val = b.val; omega

/-! ## The accumulation is the running sum over the users -/

/-- User u's summand at entry (p, b); zero past the last user, so that it is a function of a natural number. -/
private def userTerm (c : Dev nD) (p : Fin 16) (b : Fin 1024) (u : ℕ) : EReal :=
  if h : u < 100000 then coefTab V c (ix2 ⟨u, h⟩ p) * onehotT V c (ix2 ⟨u, h⟩ b) else 0

/-- The tile's product at point t is the sum of the summands of users 2000·t … 2000·t + 1999. -/
private theorem tile_sum (c : Dev nD) (t : Fin cfg0.N) (p : Fin 16) (b : Fin 1024) :
    ∑ k : Fin 2000, coefTile V c t (ix2 k p) * onehotTile V c t (ix2 k b)
      = ∑ x ∈ Finset.range 2000, userTerm V c p b (2000 * t.val + x) := by
  have hN : t.val < 50 := lt_of_lt_of_eq t.isLt (show cfg0.N = 50 from N_0)
  rw [Finset.sum_range]
  refine Finset.sum_congr rfl fun k _ => ?_
  have h : 2000 * t.val + k.val < 100000 := by have := k.isLt; omega
  rw [coefTile_apply V c t k p h, onehotTile_apply V c t k b h]
  unfold userTerm
  rw [dif_pos h]

/-- After point n the block holds, at entry (p, b), the sum over the first 2000·(n+1) users. -/
private theorem acc0_apply (c : Dev nD) (p : Fin 16) (b : Fin 1024) :
    ∀ (n : ℕ) (h : n < cfg0.N), acc0 (F := Ideal) V c n h (ix2 p b) = ∑ u ∈ Finset.range (2000 * (n + 1)), userTerm V c p b u
  | 0, h => by
    show tileFirst (F := Ideal) (iblk0 V c 0 ⟨0, h⟩) (iblk0 V c 1 ⟨0, h⟩) (ix2 p b) = _
    refine (tileFirst_apply (coefTile V c ⟨0, h⟩) (onehotTile V c ⟨0, h⟩) p b).trans ?_
    refine (tile_sum V c ⟨0, h⟩ p b).trans ?_
    refine Finset.sum_congr rfl fun x _ => ?_
    show userTerm V c p b (2000 * 0 + x) = _
    rw [Nat.mul_zero, Nat.zero_add]
  | n + 1, h => by
    show tileNext (F := Ideal) (iblk0 V c 0 ⟨n + 1, h⟩) (iblk0 V c 1 ⟨n + 1, h⟩) (acc0 V c n (Nat.lt_of_succ_lt h)) (ix2 p b) = _
    refine (tileNext_apply (coefTile V c ⟨n + 1, h⟩) (onehotTile V c ⟨n + 1, h⟩) (acc0 V c n (Nat.lt_of_succ_lt h)) p b).trans ?_
    rw [acc0_apply c p b n (Nat.lt_of_succ_lt h), tile_sum V c ⟨n + 1, h⟩ p b,
      show 2000 * (n + 1 + 1) = 2000 * (n + 1) + 2000 from by omega, Finset.sum_range_add]

/-- The accumulated block after the last point is the sum over all users. -/
theorem acc0_last (c : Dev nD) : acc0 (F := Ideal) V c 49 (by decide) = userSum V c := by
  funext j
  obtain ⟨p, b, rfl⟩ : ∃ (p : Fin 16) (b : Fin 1024), j = ix2 p b := ⟨j 0, j 1, eq_ix2 j⟩
  rw [acc0_apply V c p b 49 (by decide)]
  show ∑ u ∈ Finset.range 100000, userTerm V c p b u = ∑ u : Fin 100000, coefTab V c (ix2 u p) * onehotT V c (ix2 u b)
  rw [Finset.sum_range]
  refine Finset.sum_congr rfl fun u _ => ?_
  unfold userTerm
  rw [dif_pos u.isLt]

/-! ## The write-back -/

/-- Only the last point writes the block back, so a point that does holds the sum over all users. -/
private theorem acc0_flush (c : Dev nD) (t : Fin cfg0.N) (hf : (cfg0.win 2).flush t = true) :
    acc0 (F := Ideal) V c t.val t.isLt = userSum V c := by
  have hN : t.val < 50 := lt_of_lt_of_eq t.isLt (show cfg0.N = 50 from N_0)
  have h49 : t.val = 49 := by have := (flush0_2 t).mp hf; omega
  obtain ⟨n, hn⟩ := t
  dsimp only at h49
  subst h49
  exact acc0_last V c

/-- The output's block is at (0, 0) at every point and is the whole array: an array's contents, held in the staging
    buffer and written back, are the contents read through the block. -/
private theorem whole_blk0_2 (t : Fin cfg0.N) (G : FVec Ideal S16x1024 .f32) :
    (cfg0.win 2).cut (grid0.coords t) G = ((cfg0.win 2).blk t).view.read (Elt Ideal) G := by
  obtain ⟨-, -, -, -, e0, e1⟩ := idx_facts0 t
  funext y
  show G ((cfg0.win 2).xinj (grid0.coords t) y) = G (((cfg0.win 2).blk t).view.emb y)
  congr 1
  funext a
  apply Fin.ext
  match a with
  | ⟨0, _⟩ => show (y 0).val = win0_2.index t (0 : Fin 2) * 16 + 1 * (y 0).val; omega
  | ⟨1, _⟩ => show (y 1).val = win0_2.index t (1 : Fin 2) * 1024 + 1 * (y 1).val; omega

/-- What a point that writes back writes is its block of the sum over all users. -/
private theorem flushed0_2 (c : Dev nD) (t : Fin cfg0.N) (hf : (cfg0.win 2).flush t = true) :
    (dat0 (F := Ideal) V c).flushed 2 t = ((cfg0.win 2).blk t).view.read (Elt Ideal) (userSum V c) := by
  show (cfg0.win 2).cut (grid0.coords t) ((dat0 (F := Ideal) V c).after 2 t) = _
  rw [after0_2, acc0_flush V c t hf]
  exact whole_blk0_2 t (userSum V c)

/-- An index of the output array is in point t's block iff each coordinate is in the block's range on its axis. -/
private theorem mem_blk0_2 (t : Fin cfg0.N) (i : S16x1024.Idx) :
    i ∈ ((cfg0.win 2).blk t).view.set ↔ ∀ a : Fin 2, win0_2.index t a * S16x1024.size a ≤ (i a).val ∧ (i a).val < win0_2.index t a * S16x1024.size a + S16x1024.size a := by
  show i ∈ ((View.whole main_v6).slice (win0_2.rect t)).set ↔ _
  rw [View.set_slice_whole, Rect.mem_set_unit]
  exact Iff.rfl

/-- The region's output array after the region. -/
theorem arr0_final (c : Dev nD) : ((dat0 (F := Ideal) V c).arrAt 2 cfg0.N : FVec Ideal S16x1024 .f32) = userSum V c := by
  have hlast : (49 : ℕ) < cfg0.N := by decide
  refine (dat0 (F := Ideal) V c).arrAt_eq_of_cover 2 (userSum V c) (fun t hf => flushed0_2 V c t hf) (fun i => ?_)
  -- the last point writes back, and its block covers every index
  obtain ⟨-, -, -, -, e0, e1⟩ := idx_facts0 ⟨49, hlast⟩
  refine ⟨⟨49, hlast⟩, (flush0_2 _).mpr rfl, (mem_blk0_2 ⟨49, hlast⟩ i).mpr fun a => ?_⟩
  have h0 : (i 0).val < 16 := (i 0).isLt
  have h1 : (i 1).val < 1024 := (i 1).isLt
  match a with
  | ⟨0, _⟩ => show win0_2.index ⟨49, hlast⟩ (0 : Fin 2) * 16 ≤ (i 0).val ∧ (i 0).val < win0_2.index ⟨49, hlast⟩ (0 : Fin 2) * 16 + 16; omega
  | ⟨1, _⟩ => show win0_2.index ⟨49, hlast⟩ (1 : Fin 2) * 1024 ≤ (i 1).val ∧ (i 1).val < win0_2.index ⟨49, hlast⟩ (1 : Fin 2) * 1024 + 1024; omega

end Cert.KernelIdeal.Hand

end
-- ==== Proof.KIValue1.lean ====
/-
  What the second kernel region writes, at the ideal instance: entry (n, b) of its 1000×1024 output array, in terms of
  the arrays the region is entered with.

  Item `n` lies in block n / 40 at row n % 40.  There the body's value is the sum over the 16 features `p` of
  x_uᵀ[n,p,b] · coef_u[n,p,0] + x_iᵀ[n,p,b] · w[p,b], plus the intercept[n,0,0], kept where the mask word is not zero and
  replaced by the fill value elsewhere (the broadcasts along the batch axis and the item axis read through to the
  entry they copy; the lane reduction over the middle axis is the plain sum over `p`).  Every point writes its block
  back and the 25 blocks tile the array.
-/
import proofs.«176079_g88974542504030_cont_9to1c4b_294_10_alg».proof.Proof.KIRegion1
import proofs.«176079_g88974542504030_cont_9to1c4b_294_10_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The region's six operand arrays as plain arrays. -/
abbrev xuT (c : Dev nD) : FVec Ideal S1000x16x1024 .f32 := V c main_v1
abbrev xiT (c : Dev nD) : FVec Ideal S1000x16x1024 .f32 := V c main_v2
abbrev coefU3 (c : Dev nD) : FVec Ideal S1000x16x1 .f32 := V c main_v4
abbrev userW (c : Dev nD) : FVec Ideal S16x1024 .f32 := V c main_v6
abbrev icpt3 (c : Dev nD) : FVec Ideal S1000x1x1 .f32 := V c main_v5
abbrev maskW (c : Dev nD) : IVec S1000x1024 32 := V c main_v7

/-- The region's result at item `n`, batch row `b`. -/
def utilAt (c : Dev nD) : FVec Ideal S1000x1024 .f32 :=
  fun j => Scalar.select (IntOp.cmpi .ne (maskW V c j) 0#32)
    ((∑ p : Fin 16, (xuT V c (ix3 (j 0) p (j 1)) * coefU3 V c (ix3 (j 0) p 0) + xiT V c (ix3 (j 0) p (j 1)) * userW V c (ix2 p (j 1))))
      + icpt3 V c (ix3 (j 0) 0 0))
    Cert.Spec.fill

/-! ## Layout steps of the payload, read at an index -/

private theorem zeros3 : (![0, 0, 0] : Fin 3 → Nat) = fun _ => 0 :=
  funext fun a => match a with | ⟨0, _⟩ => rfl | ⟨1, _⟩ => rfl | ⟨2, _⟩ => rfl
private theorem zeros2 : (![0, 0] : Fin 2 → Nat) = fun _ => 0 :=
  funext fun a => match a with | ⟨0, _⟩ => rfl | ⟨1, _⟩ => rfl

/-- An `[a, b, 1]` array broadcast along its last axis reads, at `(i, j, k)`, the operand at `(i, j, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast along its first axis reads, at `(i, j, k)`, the operand at `(0, j, k)`. -/
private theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1]` column broadcast along its second axis reads, at `(i, k)`, the operand at `(i, 0)`. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- An `[a, 1, 1]` array cast to `[a, 1]` reads, at `(i, u)`, the operand at `(i, 0, 0)`. -/
private theorem shapeCast_a11_a1_apply {α : Type} {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    omega)

/-- The body's stored block at an entry, over arbitrary input blocks (row `r` of the block, batch row `b`). -/
theorem utilBlock_apply (x0 x1 : Vec Ideal S40x16x1024 .f32) (x2 : Vec Ideal S40x16x1 .f32) (x3 : Vec Ideal S16x1024 .f32)
    (x4 : Vec Ideal S40x1x1 .f32) (x5 : Vec Ideal S40x1024 .i32) (r : Fin 40) (b : Fin 1024) :
    utilBlock (F := Ideal) x0 x1 x2 x3 x4 x5 (ix2 r b)
      = Scalar.select (IntOp.cmpi .ne (x5 (ix2 r b)) 0#32)
          ((∑ p : Fin 16, (x0 (ix3 r p b) * x2 (ix3 r p 0) + x1 (ix3 r p b) * x3 (ix2 p b))) + x4 (ix3 r 0 0))
          Cert.Spec.fill := by
  unfold utilBlock
  rw [View.canon_unit_zero zeros2]
  simp only [View.ld_unit_zero (S := S40x16x1024) zeros3, View.ld_unit_zero (S := S40x16x1) zeros3,
    View.ld_unit_zero (S := S16x1024) zeros2, View.ld_unit_zero (S := S40x1x1) zeros3,
    View.ld_unit_zero (S := S40x1024) zeros2]
  unfold k1_pay1
  simp only [shapeCast_self]
  -- at the entry the select, the comparison with the zero word, the outer sum and the fill read through
  show Scalar.select (IntOp.cmpi .ne (x5 (ix2 r b)) 0#32)
      (multiReduction (F := Ideal) .add [1] S40x1024
          (addf (mulf x0 (broadcastTo S40x16x1024 x2 broadcasts_S40x16x1_S40x16x1024))
            (mulf x1 (broadcastTo S40x16x1024 (shapeCast S1x16x1024 x3 shapeCasts_S16x1024_S1x16x1024)
              broadcasts_S1x16x1024_S40x16x1024)))
          0x00000000#32 reduces_S40x16x1024_S40x1024 _ _ (ix2 r b)
        + broadcastTo S40x1024 (shapeCast S40x1 x4 shapeCasts_S40x1x1_S40x1) broadcasts_S40x1_S40x1024 (ix2 r b))
      Cert.Spec.fill = _
  -- the intercept column, broadcast along the batch axis
  rw [broadcastTo_a1_ab_apply, shapeCast_a11_a1_apply]
  refine congrArg (fun z => Scalar.select (IntOp.cmpi .ne (x5 (ix2 r b)) 0#32) (z + x4 (ix3 r 0 0)) Cert.Spec.fill) ?_
  -- the reduction over the middle axis is the sum over the 16 features
  refine (Ideal.multiReduction_add_single _ _ reduces_S40x16x1024_S40x1024 _ _ (ix2 r b)).trans ?_
  refine Finset.sum_congr rfl fun (p : Fin 16) _ => ?_
  have hl : reduces_S40x16x1024_S40x1024.lift (ix2 r b) p = ix3 r p b :=
    funext fun a => Fin.ext (match a with | ⟨0, _⟩ => rfl | ⟨1, _⟩ => rfl | ⟨2, _⟩ => rfl)
  rw [hl, addf_apply, mulf_apply, mulf_apply, broadcastTo_ab1_abc_apply, broadcastTo_1bc_abc_apply,
    shapeCast_ab_1ab_apply]

/-! ## From the blocks to the array -/

/-- The block indices over the grid: every window but the user coefficients' moves one block of 40 items per point along
    its first axis and stays at 0 on the others; the user coefficients' block is the whole array at every point. -/
private theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
private theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
private theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)
private theorem idx1_3 : ∀ t : Fin cfg1.N, win1_3.index t (0 : Fin 2) = 0 ∧ win1_3.index t (1 : Fin 2) = 0 :=
  (by decide +kernel : ∀ t : Fin grid1.N, _)
private theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)
private theorem idx1_5 : ∀ t : Fin cfg1.N, win1_5.index t (0 : Fin 2) = t.val ∧ win1_5.index t (1 : Fin 2) = 0 :=
  (by decide +kernel : ∀ t : Fin grid1.N, _)
private theorem idx1_6 : ∀ t : Fin cfg1.N, win1_6.index t (0 : Fin 2) = t.val ∧ win1_6.index t (1 : Fin 2) = 0 :=
  (by decide +kernel : ∀ t : Fin grid1.N, _)

/-- Each input block at point `t`, read at an entry, is its array at the entry 40·t items further along the first axis
    (the user coefficients: at the same entry). -/
private theorem iblk1_0_apply (c : Dev nD) (t : Fin cfg1.N) (x : S40x16x1024.Idx) (k : S1000x16x1024.Idx)
    (h0 : (k 0).val = 40 * t.val + (x 0).val) (h1 : (k 1).val = (x 1).val) (h2 : (k 2).val = (x 2).val) :
    (iblk1 V c 0 t : Vec Ideal S40x16x1024 .f32) x = xuT V c k := by
  obtain ⟨e0, e1, e2⟩ := idx1_0 t
  unfold iblk1
  rw [View.read_apply]
  show V c main_v1 _ = V c main_v1 _
  congr 1
  funext a
  apply Fin.ext
  match a with
  | ⟨0, _⟩ => show win1_0.index t (0 : Fin 3) * 40 + 1 * (x 0).val = (k 0).val; rw [e0, h0]; omega
  | ⟨1, _⟩ => show win1_0.index t (1 : Fin 3) * 16 + 1 * (x 1).val = (k 1).val; rw [e1, h1]; omega
  | ⟨2, _⟩ => show win1_0.index t (2 : Fin 3) * 1024 + 1 * (x 2).val = (k 2).val; rw [e2, h2]; omega

private theorem iblk1_1_apply (c : Dev nD) (t : Fin cfg1.N) (x : S40x16x1024.Idx) (k : S1000x16x1024.Idx)
    (h0 : (k 0).val = 40 * t.val + (x 0).val) (h1 : (k 1).val = (x 1).val) (h2 : (k 2).val = (x 2).val) :
    (iblk1 V c 1 t : Vec Ideal S40x16x1024 .f32) x = xiT V c k := by
  obtain ⟨e0, e1, e2⟩ := idx1_1 t
  unfold iblk1
  rw [View.read_apply]
  show V c main_v2 _ = V c main_v2 _
  congr 1
  funext a
  apply Fin.ext
  match a with
  | ⟨0, _⟩ => show win1_1.index t (0 : Fin 3) * 40 + 1 * (x 0).val = (k 0).val; rw [e0, h0]; omega
  | ⟨1, _⟩ => show win1_1.index t (1 : Fin 3) * 16 + 1 * (x 1).val = (k 1).val; rw [e1, h1]; omega
  | ⟨2, _⟩ => show win1_1.index t (2 : Fin 3) * 1024 + 1 * (x 2).val = (k 2).val; rw [e2, h2]; omega

private theorem iblk1_2_apply (c : Dev nD) (t : Fin cfg1.N) (x : S40x16x1.Idx) (k : S1000x16x1.Idx)
    (h0 : (k 0).val = 40 * t.val + (x 0).val) (h1 : (k 1).val = (x 1).val) (h2 : (k 2).val = (x 2).val) :
    (iblk1 V c 2 t : Vec Ideal S40x16x1 .f32) x = coefU3 V c k := by
  obtain ⟨e0, e1, e2⟩ := idx1_2 t
  unfold iblk1
  rw [View.read_apply]
  show V c main_v4 _ = V c main_v4 _
  congr 1
  funext a
  apply Fin.ext
  match a with
  | ⟨0, _⟩ => show win1_2.index t (0 : Fin 3) * 40 + 1 * (x 0).val = (k 0).val; rw [e0, h0]; omega
  | ⟨1, _⟩ => show win1_2.index t (1 : Fin 3) * 16 + 1 * (x 1).val = (k 1).val; rw [e1, h1]; omega
  | ⟨2, _⟩ => show win1_2.index t (2 : Fin 3) * 1 + 1 * (x 2).val = (k 2).val; rw [e2, h2]; omega

private theorem iblk1_3_apply (c : Dev nD) (t : Fin cfg1.N) (x : S16x1024.Idx) (k : S16x1024.Idx)
    (h0 : (k 0).val = (x 0).val) (h1 : (k 1).val = (x 1).val) :
    (iblk1 V c 3 t : Vec Ideal S16x1024 .f32) x = userW V c k := by
  obtain ⟨e0, e1⟩ := idx1_3 t
  unfold iblk1
  rw [View.read_apply]
  show V c main_v6 _ = V c main_v6 _
  congr 1
  funext a
  apply Fin.ext
  match a with
  | ⟨0, _⟩ => show win1_3.index t (0 : Fin 2) * 16 + 1 * (x 0).val = (k 0).val; rw [e0, h0]; omega
  | ⟨1, _⟩ => show win1_3.index t (1 : Fin 2) * 1024 + 1 * (x 1).val = (k 1).val; rw [e1, h1]; omega

private theorem iblk1_4_apply (c : Dev nD) (t : Fin cfg1.N) (x : S40x1x1.Idx) (k : S1000x1x1.Idx)
    (h0 : (k 0).val = 40 * t.val + (x 0).val) (h1 : (k 1).val = (x 1).val) (h2 : (k 2).val = (x 2).val) :
    (iblk1 V c 4 t : Vec Ideal S40x1x1 .f32) x = icpt3 V c k := by
  obtain ⟨e0, e1, e2⟩ := idx1_4 t
  unfold iblk1
  rw [View.read_apply]
  show V c main_v5 _ = V c main_v5 _
  congr 1
  funext a
  apply Fin.ext
  match a with
  | ⟨0, _⟩ => show win1_4.index t (0 : Fin 3) * 40 + 1 * (x 0).val = (k 0).val; rw [e0, h0]; omega
  | ⟨1, _⟩ => show win1_4.index t (1 : Fin 3) * 1 + 1 * (x 1).val = (k 1).val; rw [e1, h1]; omega
  | ⟨2, _⟩ => show win1_4.index t (2 : Fin 3) * 1 + 1 * (x 2).val = (k 2).val; rw [e2, h2]; omega

private theorem iblk1_5_apply (c : Dev nD) (t : Fin cfg1.N) (x : S40x1024.Idx) (k : S1000x1024.Idx)
    (h0 : (k 0).val = 40 * t.val + (x 0).val) (h1 : (k 1).val = (x 1).val) :
    (iblk1 V c 5 t : Vec Ideal S40x1024 .i32) x = maskW V c k := by
  obtain ⟨e0, e1⟩ := idx1_5 t
  unfold iblk1
  rw [View.read_apply]
  show V c main_v7 _ = V c main_v7 _
  congr 1
  funext a
  apply Fin.ext
  match a with
  | ⟨0, _⟩ => show win1_5.index t (0 : Fin 2) * 40 + 1 * (x 0).val = (k 0).val; rw [e0, h0]; omega
  | ⟨1, _⟩ => show win1_5.index t (1 : Fin 2) * 1024 + 1 * (x 1).val = (k 1).val; rw [e1, h1]; omega

/-- The body's block at point `t`, at row `y 0` and batch row `y 1`, is the region's result at item 40·t + `y 0`. -/
private theorem utilBlock_point (c : Dev nD) (t : Fin cfg1.N) (y : S40x1024.Idx) (i : S1000x1024.Idx)
    (h0 : (i 0).val = 40 * t.val + (y 0).val) (h1 : (i 1).val = (y 1).val) :
    utilBlock (F := Ideal) (iblk1 V c 0 t) (iblk1 V c 1 t) (iblk1 V c 2 t) (iblk1 V c 3 t) (iblk1 V c 4 t) (iblk1 V c 5 t) y
      = utilAt V c i := by
  obtain ⟨r, b, rfl⟩ : ∃ (r : Fin 40) (b : Fin 1024), y = ix2 r b := ⟨y 0, y 1, eq_ix2 y⟩
  refine (utilBlock_apply _ _ _ _ _ _ r b).trans ?_
  have e5 : (iblk1 V c 5 t : Vec Ideal S40x1024 .i32) (ix2 r b) = maskW V c i := iblk1_5_apply V c t _ _ h0 h1
  have e4 : (iblk1 V c 4 t : Vec Ideal S40x1x1 .f32) (ix3 r 0 0) = icpt3 V c (ix3 (i 0) 0 0) :=
    iblk1_4_apply V c t _ _ h0 rfl rfl
  have e0 : ∀ p : Fin 16, (iblk1 V c 0 t : Vec Ideal S40x16x1024 .f32) (ix3 r p b) = xuT V c (ix3 (i 0) p (i 1)) :=
    fun p => iblk1_0_apply V c t _ _ h0 rfl h1
  have e1 : ∀ p : Fin 16, (iblk1 V c 1 t : Vec Ideal S40x16x1024 .f32) (ix3 r p b) = xiT V c (ix3 (i 0) p (i 1)) :=
    fun p => iblk1_1_apply V c t _ _ h0 rfl h1
  have e2 : ∀ p : Fin 16, (iblk1 V c 2 t : Vec Ideal S40x16x1 .f32) (ix3 r p 0) = coefU3 V c (ix3 (i 0) p 0) :=
    fun p => iblk1_2_apply V c t _ _ h0 rfl rfl
  have e3 : ∀ p : Fin 16, (iblk1 V c 3 t : Vec Ideal S16x1024 .f32) (ix2 p b) = userW V c (ix2 p (i 1)) :=
    fun p => iblk1_3_apply V c t _ _ rfl h1
  unfold utilAt
  rw [e5, e4]
  simp only [e0, e1, e2, e3]

/-- What point `t` writes back is its block of the region's result. -/
private theorem flushed1_eq (c : Dev nD) (t : Fin cfg1.N) :
    (dat1 (F := Ideal) V c).flushed 6 t = ((cfg1.win 6).blk t).view.read (Elt Ideal) (utilAt V c) := by
  show (cfg1.win 6).cut (grid1.coords t) ((dat1 V c).after 6 t) = _
  rw [after1_6]
  obtain ⟨e0, e1⟩ := idx1_6 t
  funext j
  show utilBlock (F := Ideal) (iblk1 V c 0 t) (iblk1 V c 1 t) (iblk1 V c 2 t) (iblk1 V c 3 t) (iblk1 V c 4 t) (iblk1 V c 5 t)
      ((cfg1.win 6).xinj (grid1.coords t) j) = utilAt V c (((cfg1.win 6).blk t).view.emb j)
  refine utilBlock_point V c t _ _ ?_ ?_
  · show win1_6.index t (0 : Fin 2) * 40 + 1 * (j 0).val = 40 * t.val + (j 0).val
    rw [e0]; omega
  · show win1_6.index t (1 : Fin 2) * 1024 + 1 * (j 1).val = (j 1).val
    rw [e1]; omega

/-- An entry of the output array is in point `t`'s block iff each coordinate is in the block's range on its axis. -/
private theorem mem_blk1_6 (t : Fin cfg1.N) (i : S1000x1024.Idx) :
    i ∈ ((cfg1.win 6).blk t).view.set ↔ ∀ a : Fin 2, win1_6.index t a * S40x1024.size a ≤ (i a).val
      ∧ (i a).val < win1_6.index t a * S40x1024.size a + S40x1024.size a := by
  show i ∈ ((View.whole main_v8).slice (win1_6.rect t)).set ↔ _
  rw [View.set_slice_whole, Rect.mem_set_unit]
  exact Iff.rfl

/-- The 25 blocks tile the array: item `n` is in the block of point `n / 40`. -/
private theorem cover1_out (i : S1000x1024.Idx) :
    ∃ t : Fin cfg1.N, (cfg1.win 6).flush t = true ∧ i ∈ ((cfg1.win 6).blk t).view.set := by
  have hi0 : (i 0).val < 1000 := idx2_lt0 i
  have hi1 : (i 1).val < 1024 := idx2_lt1 i
  have hN : cfg1.N = 25 := N_1
  let t : Fin cfg1.N := ⟨(i 0).val / 40, by rw [hN]; omega⟩
  obtain ⟨e0, e1⟩ := idx1_6 t
  have ht : t.val = (i 0).val / 40 := rfl
  refine ⟨t, flush1_6 t, ?_⟩
  rw [mem_blk1_6]
  intro a
  match a with
  | ⟨0, _⟩ =>
    show win1_6.index t (0 : Fin 2) * 40 ≤ (i 0).val ∧ (i 0).val < win1_6.index t (0 : Fin 2) * 40 + 40
    rw [e0, ht]; omega
  | ⟨1, _⟩ =>
    show win1_6.index t (1 : Fin 2) * 1024 ≤ (i 1).val ∧ (i 1).val < win1_6.index t (1 : Fin 2) * 1024 + 1024
    rw [e1]; omega

/-- The region's output array after the region. -/
theorem arr1_final (c : Dev nD) : ((dat1 (F := Ideal) V c).arrAt 6 cfg1.N : FVec Ideal S1000x1024 .f32) = utilAt V c :=
  (dat1 (F := Ideal) V c).arrAt_eq_of_cover 6 (utilAt V c) (fun t _ => flushed1_eq V c t) cover1_out

end Cert.KernelIdeal.Hand

end
-- ==== Proof.KIValue.lean ====
/-
  The idealized kernel program's result array is the specification of its argument arrays.

  Reading the result back through the program: the last host operation transposes the second region's 1000×1024
  array, so the result at (b, n) is that array at (n, b); there the region's value is the masked utility over its
  six operand arrays, and each of those is a host operation's result over the arguments — the feature arrays
  transposed so that x[b,n,p] sits at (n, p, b), the item coefficients and intercepts with a unit axis appended,
  the availability bit transposed and widened to a word (a widened bit is non-zero exactly when the bit is set),
  and the user coefficients the first region's sum over all users of coef_i[u,p] · onehot[b,u].
-/
import proofs.«176079_g88974542504030_cont_9to1c4b_294_10_alg».proof.Proof.KIRun
import proofs.«176079_g88974542504030_cont_9to1c4b_294_10_alg».proof.Proof.KIValue0
import proofs.«176079_g88974542504030_cont_9to1c4b_294_10_alg».proof.Proof.KIValue1
import proofs.«176079_g88974542504030_cont_9to1c4b_294_10_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The argument arrays as launched. -/
abbrev arg0 (c : Dev nD) : FVec Ideal S1024x1000x16 .f32 := m ((c.tc : Thread nD τ).loc main_arg0)
abbrev arg1 (c : Dev nD) : FVec Ideal S1024x1000x16 .f32 := m ((c.tc : Thread nD τ).loc main_arg1)
abbrev arg2 (c : Dev nD) : FVec Ideal S1024x100000 .f32 := m ((c.tc : Thread nD τ).loc main_arg2)
abbrev arg3 (c : Dev nD) : IVec S1024x1000 1 := m ((c.tc : Thread nD τ).loc main_arg3)
abbrev arg4 (c : Dev nD) : FVec Ideal S1000x16 .f32 := m ((c.tc : Thread nD τ).loc main_arg4)
abbrev arg5 (c : Dev nD) : FVec Ideal S100000x16 .f32 := m ((c.tc : Thread nD τ).loc main_arg5)
abbrev arg6 (c : Dev nD) : FVec Ideal S1000x1 .f32 := m ((c.tc : Thread nD τ).loc main_arg6)

/-! ## The host operations' results -/

theorem V1_v0 (c : Dev nD) : (Gen.V1 m c main_v0 : FVec Ideal S100000x1024 .f32)
    = transpose S100000x1024 [1, 0] (arg2 m c) transposes_S1024x100000_S100000x1024_1_0 := by
  show StableHlo.after hostOps0 (Gen.V0 m c) (Proc.devRef .tc main_v0) = _
  after_results
theorem V1_v1 (c : Dev nD) : (Gen.V1 m c main_v1 : FVec Ideal S1000x16x1024 .f32)
    = transpose S1000x16x1024 [1, 2, 0] (arg0 m c) transposes_S1024x1000x16_S1000x16x1024_1_2_0 := by
  show StableHlo.after hostOps0 (Gen.V0 m c) (Proc.devRef .tc main_v1) = _
  after_results
theorem V1_v2 (c : Dev nD) : (Gen.V1 m c main_v2 : FVec Ideal S1000x16x1024 .f32)
    = transpose S1000x16x1024 [1, 2, 0] (arg1 m c) transposes_S1024x1000x16_S1000x16x1024_1_2_0 := by
  show StableHlo.after hostOps0 (Gen.V0 m c) (Proc.devRef .tc main_v2) = _
  after_results
theorem V1_v3 (c : Dev nD) : (Gen.V1 m c main_v3 : IVec S1000x1024 1)
    = transpose S1000x1024 [1, 0] (arg3 m c) transposes_S1024x1000_S1000x1024_1_0 := by
  show StableHlo.after hostOps0 (Gen.V0 m c) (Proc.devRef .tc main_v3) = _
  after_results
theorem V1_v4 (c : Dev nD) : (Gen.V1 m c main_v4 : FVec Ideal S1000x16x1 .f32)
    = broadcastInDim S1000x16x1 ![0, 1] bcast_S1000x16_S1000x16x1_0_1 (arg4 m c) := by
  show StableHlo.after hostOps0 (Gen.V0 m c) (Proc.devRef .tc main_v4) = _
  after_results
theorem V1_v5 (c : Dev nD) : (Gen.V1 m c main_v5 : FVec Ideal S1000x1x1 .f32)
    = broadcastInDim S1000x1x1 ![0, 1] bcast_S1000x1_S1000x1x1_0_1 (arg6 m c) := by
  show StableHlo.after hostOps0 (Gen.V0 m c) (Proc.devRef .tc main_v5) = _
  after_results
theorem X3_v7 (c : Dev nD) : (X3 m c main_v7 : IVec S1000x1024 32)
    = extui 32 (X2 m c main_v3 : IVec S1000x1024 1) natLt_1_32 := by
  show StableHlo.after hostOps1 (X2 m c) (Proc.devRef .tc main_v7) = _
  after_results
theorem V5_v9 (c : Dev nD) : (Gen.V5 m (outs m) c main_v9 : FVec Ideal S1024x1000 .f32)
    = transpose S1024x1000 [1, 0] (Gen.V4 m (outs m) c main_v8 : FVec Ideal S1000x1024 .f32) transposes_S1000x1024_S1024x1000_1_0 := by
  show StableHlo.after hostOps2 (Gen.V4 m (outs m) c) (Proc.devRef .tc main_v9) = _
  after_results

/-! ## The second region's operands, entry by entry, over the arguments -/

theorem xuT_at (c : Dev nD) (n : Fin 1000) (p : Fin 16) (b : Fin 1024) :
    xuT (VR3 m) c (ix3 n p b) = arg0 m c (ix3 b n p) := by
  show (X3 m c main_v1 : FVec Ideal S1000x16x1024 .f32) (ix3 n p b) = _
  rw [X3_of m c main_v1 (by decide), X2_of_ne m c main_v1 (by decide), V1_v1]
  exact transpose_apply _ _ _ _ (ix3 b n p) (fun a => match a with | ⟨0, _⟩ => rfl | ⟨1, _⟩ => rfl | ⟨2, _⟩ => rfl)
theorem xiT_at (c : Dev nD) (n : Fin 1000) (p : Fin 16) (b : Fin 1024) :
    xiT (VR3 m) c (ix3 n p b) = arg1 m c (ix3 b n p) := by
  show (X3 m c main_v2 : FVec Ideal S1000x16x1024 .f32) (ix3 n p b) = _
  rw [X3_of m c main_v2 (by decide), X2_of_ne m c main_v2 (by decide), V1_v2]
  exact transpose_apply _ _ _ _ (ix3 b n p) (fun a => match a with | ⟨0, _⟩ => rfl | ⟨1, _⟩ => rfl | ⟨2, _⟩ => rfl)
theorem coefU3_at (c : Dev nD) (n : Fin 1000) (p : Fin 16) :
    coefU3 (VR3 m) c (ix3 n p 0) = arg4 m c (ix2 n p) := by
  show (X3 m c main_v4 : FVec Ideal S1000x16x1 .f32) (ix3 n p 0) = _
  rw [X3_of m c main_v4 (by decide), X2_of_ne m c main_v4 (by decide), V1_v4]
  exact broadcastInDim_apply _ _ _ _ (ix2 n p) (fun a => match a with | ⟨0, _⟩ => rfl | ⟨1, _⟩ => rfl)
theorem icpt3_at (c : Dev nD) (n : Fin 1000) :
    icpt3 (VR3 m) c (ix3 n 0 0) = arg6 m c (ix2 n 0) := by
  show (X3 m c main_v5 : FVec Ideal S1000x1x1 .f32) (ix3 n 0 0) = _
  rw [X3_of m c main_v5 (by decide), X2_of_ne m c main_v5 (by decide), V1_v5]
  exact broadcastInDim_apply _ _ _ _ (ix2 n 0) (fun a => match a with | ⟨0, _⟩ => rfl | ⟨1, _⟩ => rfl)
/-- A bit widened to a word is non-zero exactly when it is set. -/
theorem widened_ne_zero : ∀ x : BitVec 1, IntOp.cmpi .ne (x.setWidth 32) 0#32 = x := by decide
theorem mask_at (c : Dev nD) (n : Fin 1000) (b : Fin 1024) :
    IntOp.cmpi .ne (maskW (VR3 m) c (ix2 n b)) 0#32 = arg3 m c (ix2 b n) := by
  show IntOp.cmpi .ne ((X3 m c main_v7 : IVec S1000x1024 32) (ix2 n b)) 0#32 = _
  rw [X3_v7, extui_apply, widened_ne_zero, X2_of_ne m c main_v3 (by decide), V1_v3]
  exact transpose_ix2_apply _ _ n b
/-- The first region's two operand arrays, entry by entry, over the arguments. -/
theorem coefTab_at (c : Dev nD) (u : Fin 100000) (p : Fin 16) : coefTab (VR1 m) c (ix2 u p) = arg5 m c (ix2 u p) := by
  show (Gen.V1 m c main_arg5 : FVec Ideal S100000x16 .f32) (ix2 u p) = _
  rw [Gen.V1_of m c main_arg5 (by decide)]
theorem onehotT_at (c : Dev nD) (u : Fin 100000) (b : Fin 1024) : onehotT (VR1 m) c (ix2 u b) = arg2 m c (ix2 b u) := by
  show (Gen.V1 m c main_v0 : FVec Ideal S100000x1024 .f32) (ix2 u b) = _
  rw [V1_v0]
  exact transpose_ix2_apply _ _ u b
/-- What the first region wrote, at an entry, is the specification's user coefficient. -/
theorem userSum_at (c : Dev nD) (p : Fin 16) (b : Fin 1024) :
    userSum (VR1 m) c (ix2 p b) = Cert.Spec.userCoef (arg2 m c) (arg5 m c) b p := by
  show (∑ u : Fin 100000, coefTab (VR1 m) c (ix2 u p) * onehotT (VR1 m) c (ix2 u b) : EReal)
    = ∑ u : Fin 100000, arg5 m c (ix2 u p) * arg2 m c (ix2 b u)
  exact Finset.sum_congr rfl fun u _ => by rw [coefTab_at, onehotT_at]
theorem userW_at (c : Dev nD) (p : Fin 16) (b : Fin 1024) :
    userW (VR3 m) c (ix2 p b) = Cert.Spec.userCoef (arg2 m c) (arg5 m c) b p := by
  show (X3 m c main_v6 : FVec Ideal S16x1024 .f32) (ix2 p b) = _
  rw [X3_of m c main_v6 (by decide), X2_v6]
  unfold o2
  rw [arr0_final]
  exact userSum_at m c p b

/-! ## The result -/

/-- The result array after the run is the specification of the arguments as launched. -/
theorem result_value (c : Dev nD) : (Gen.V5 m (outs m) c main_v9 : FVec Ideal S1024x1000 .f32)
    = Cert.Spec.G (arg0 m c) (arg1 m c) (arg2 m c) (arg3 m c) (arg4 m c) (arg5 m c) (arg6 m c) := by
  funext j
  obtain ⟨b, n, rfl⟩ : ∃ (b : Fin 1024) (n : Fin 1000), j = ix2 b n := ⟨j 0, j 1, eq_ix2 j⟩
  rw [V5_v9, transpose_ix2_apply, V4_eq, X4_v8]
  unfold o4
  rw [arr1_final, Cert.Spec.G_apply]
  unfold utilAt Cert.Spec.utility
  show Scalar.select (IntOp.cmpi .ne (maskW (VR3 m) c (ix2 n b)) 0#32)
      ((∑ p : Fin 16, (xuT (VR3 m) c (ix3 n p b) * coefU3 (VR3 m) c (ix3 n p 0) + xiT (VR3 m) c (ix3 n p b) * userW (VR3 m) c (ix2 p b)))
        + icpt3 (VR3 m) c (ix3 n 0 0)) Cert.Spec.fill = _
  rw [mask_at, icpt3_at]
  have hs : (∑ p : Fin 16, (xuT (VR3 m) c (ix3 n p b) * coefU3 (VR3 m) c (ix3 n p 0) + xiT (VR3 m) c (ix3 n p b) * userW (VR3 m) c (ix2 p b)) : EReal)
      = ∑ p : Fin 16, (arg0 m c (ix3 b n p) * arg4 m c (ix2 n p) + arg1 m c (ix3 b n p) * Cert.Spec.userCoef (arg2 m c) (arg5 m c) b p) :=
    Finset.sum_congr rfl fun p _ => by rw [xuT_at, xiT_at, coefU3_at, userW_at]
  rw [hs]

end Cert.KernelIdeal.Hand

end
-- ==== Proof.RefValue.lean ====
/-
  The reference at the ideal instance computes the specification `Cert.Spec.G`, entry by entry.

  At batch row `b` and item `n` the reference's term is
      ((0 + Σ_p x_u[b,n,p]·coef_u[n,p]) + Σ_p x_i[b,n,p]·(Σ_u onehot[b,u]·coef_i[u,p])) + (0 + Σ_{one term} 1·intercept[n,0]),
  selected against the fill value by the availability bit.  The specification has the two sums over `p` as one sum
  of the termwise sums, the user sum's factors in the other order, and the intercept bare.  The laws that join them
  are those of a commutative monoid with a unit for the product: 0 + x = x, 1 · x = x, x · y = y · x, and
  Σ (f + g) = Σ f + Σ g; none needs a finite operand, so the precondition is not used.
-/
import proofs.«176079_g88974542504030_cont_9to1c4b_294_10_alg».proof.Defs
import proofs.«176079_g88974542504030_cont_9to1c4b_294_10_alg».proof.Proof.Gen.ReferenceIdeal.Run
import proofs.«176079_g88974542504030_cont_9to1c4b_294_10_alg».proof.Proof.Gen.ReferenceIdeal.Read
import proofs.«176079_g88974542504030_cont_9to1c4b_294_10_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.TcCoe Idealize.ShloMosaic.ValueIdx

/-- The first sum over `p` at an entry: Σ_p x_u[b,n,p]·coef_u[n,p]. -/
private theorem sumU_at (a0 : FVec Ideal S1024x1000x16 .f32) (a4 : FVec Ideal S1000x16 .f32)
    (b : Fin 1024) (n : Fin 1000) :
    Read.val_main_v4 (F := Ideal) a0 a4 (ix2 b n) = ∑ p : Fin 16, a0 (ix3 b n p) * a4 (ix2 n p) := by
  have e3 : ∀ p : Fin 16, Read.idx_main_v4 (ix2 b n) p = ix3 b n p := fun p =>
    funext fun a => Fin.ext (by match a with | ⟨0, _⟩ => rfl | ⟨1, _⟩ => rfl | ⟨2, _⟩ => rfl)
  have e2 : ∀ p : Fin 16, Read.idx_main_v1 (Read.idx_main_v2 (ix3 b n p)) = ix2 n p := fun p =>
    funext fun a => Fin.ext (by match a with | ⟨0, _⟩ => rfl | ⟨1, _⟩ => rfl)
  rw [Read.val_main_v4_apply]
  simp only [Read.val_main_cst_0_apply, Read.val_main_v3_apply, Read.val_main_v2_apply, Read.val_main_v1_apply, e3, e2,
    Ideal.ofBits_def, Ideal.ofBits_zero_f32, Ideal.mulf_def, zero_add]

/-- The second sum over `p` at an entry: Σ_p x_i[b,n,p]·w[b,p], with `w` the specification's user coefficient
    (the product's factors under the inner sum exchanged). -/
private theorem sumI_at (a1 : FVec Ideal S1024x1000x16 .f32) (a2 : FVec Ideal S1024x100000 .f32)
    (a5 : FVec Ideal S100000x16 .f32) (b : Fin 1024) (n : Fin 1000) :
    Read.val_main_v10 (F := Ideal) a1 a2 a5 (ix2 b n)
      = ∑ p : Fin 16, a1 (ix3 b n p) * Cert.Spec.userCoef a2 a5 b p := by
  have e3 : ∀ p : Fin 16, Read.idx_main_v10 (ix2 b n) p = ix3 b n p := fun p =>
    funext fun a => Fin.ext (by match a with | ⟨0, _⟩ => rfl | ⟨1, _⟩ => rfl | ⟨2, _⟩ => rfl)
  have el : ∀ (p : Fin 16) (u : Fin 100000),
      Read.lidx_main_v6 (Read.idx_main_v7 (Read.idx_main_v8 (ix3 b n p))) u = ix2 b u := fun p u =>
    funext fun a => Fin.ext (by match a with | ⟨0, _⟩ => rfl | ⟨1, _⟩ => rfl)
  have er : ∀ (p : Fin 16) (u : Fin 100000),
      Read.ridx_main_v6 (Read.idx_main_v7 (Read.idx_main_v8 (ix3 b n p))) u = ix2 u p := fun p u =>
    funext fun a => Fin.ext (by match a with | ⟨0, _⟩ => rfl | ⟨1, _⟩ => rfl)
  rw [Read.val_main_v10_apply]
  simp only [Read.val_main_cst_1_apply, Read.val_main_v9_apply, Read.val_main_v8_apply, Read.val_main_v7_apply,
    Read.val_main_v6_apply, e3, el, er, Ideal.ofBits_def, Ideal.ofBits_zero_f32, Ideal.mulf_def, zero_add,
    Cert.Spec.userCoef]
  exact Finset.sum_congr rfl fun p _ => congrArg (a1 (ix3 b n p) * ·) (Finset.sum_congr rfl fun u _ => mul_comm _ _)

/-- The intercept's one-term sum at an entry: 0 + 1·intercept[n,0]. -/
private theorem icptSum_at (a6 : FVec Ideal S1000x1 .f32) (b : Fin 1024) (n : Fin 1000) :
    Read.val_main_v16 (F := Ideal) a6 (ix2 b n) = a6 (ix2 n 0) := by
  have e : Read.idx_main_v13 (Read.idx_main_v14 (Read.idx_main_v16 (ix2 b n) 0)) = ix2 n 0 :=
    funext fun a => Fin.ext (by match a with | ⟨0, _⟩ => rfl | ⟨1, _⟩ => rfl)
  rw [Read.val_main_v16_apply]
  simp only [Fin.sum_univ_one, Read.val_main_cst_3_apply, Read.val_main_v15_apply, Read.val_main_v12_apply,
    Read.val_main_cst_2_apply, Read.val_main_v14_apply, Read.val_main_v13_apply, e, Ideal.ofBits_def,
    Ideal.ofBits_zero_f32, Ideal.ofBits_one_f32, Ideal.mulf_def, zero_add, one_mul]

/-- The reference run's result term, over any argument arrays, is the specification of them. -/
theorem result_eq (a0 a1 : FVec Ideal S1024x1000x16 .f32) (a2 : FVec Ideal S1024x100000 .f32) (a3 : IVec S1024x1000 1)
    (a4 : FVec Ideal S1000x16 .f32) (a5 : FVec Ideal S100000x16 .f32) (a6 : FVec Ideal S1000x1 .f32) :
    (select a3 (addf (addf (addf (broadcastInDim S1024x1000 ![] bcast_S_S1024x1000 (constant S_ .f32 0x00000000#32)) (Host.reduceAdd (mulf a0 (broadcastInDim S1024x1000x16 ![0, 1, 2] bcast_S1x1000x16_S1024x1000x16_0_1_2 (broadcastInDim S1x1000x16 ![1, 2] bcast_S1000x16_S1x1000x16_1_2 a4))) (constant S_ .f32 0x00000000#32) reducesTo_S1024x1000x16_S1024x1000_d2 h_S_)) (Host.reduceAdd (mulf a1 (broadcastInDim S1024x1000x16 ![0, 1, 2] bcast_S1024x1x16_S1024x1000x16_0_1_2 (broadcastInDim S1024x1x16 ![0, 2] bcast_S1024x16_S1024x1x16_0_2 (Host.dotGeneral dot_S1024x100000_S100000x16_S1024x16_1_0_0_1_n_n none a2 a5)))) (constant S_ .f32 0x00000000#32) reducesTo_S1024x1000x16_S1024x1000_d2 h_S_)) (Host.reduceAdd (mulf (broadcastInDim S1024x1000x1 ![] bcast_S_S1024x1000x1 (constant S_ .f32 0x3F800000#32)) (broadcastInDim S1024x1000x1 ![0, 1, 2] bcast_S1x1000x1_S1024x1000x1_0_1_2 (broadcastInDim S1x1000x1 ![1, 2] bcast_S1000x1_S1x1000x1_1_2 a6))) (constant S_ .f32 0x00000000#32) reducesTo_S1024x1000x1_S1024x1000_d2 h_S_)) (broadcastInDim S1024x1000 ![] bcast_S_S1024x1000 (constant S_ .f32 0xE0AD78EC#32)) : FVec Ideal S1024x1000 .f32)
    = Cert.Spec.G a0 a1 a2 a3 a4 a5 a6 := by
  refine (Read.val_main_v18_eq (F := Ideal) a0 a1 a2 a3 a4 a5 a6).trans ?_
  funext j
  obtain ⟨b, n, rfl⟩ : ∃ (b : Fin 1024) (n : Fin 1000), j = ix2 b n := ⟨j 0, j 1, eq_ix2 j⟩
  rw [Cert.Spec.G_apply, Read.val_main_v18_apply, Read.val_main_v17_apply, Read.val_main_v11_apply,
    Read.val_main_v5_apply, Read.val_main_v0_apply, Read.val_main_cst_apply, Read.val_main_call0_v0_apply,
    Read.val_main_cst_4_apply, sumU_at, sumI_at, icptSum_at]
  simp only [Ideal.ofBits_def, Ideal.addf_def, Ideal.ofBits_zero_f32, zero_add]
  unfold Cert.Spec.utility
  rw [Finset.sum_add_distrib]

end Cert.ReferenceIdeal.RefValue

end
-- ==== Proof.lean ====
/-
  The five claims of this certificate.

  Both kernel programs (the word-level one and its idealization have the same text) run as: host operations that
  transpose the inputs so that the batch axis comes last, a first kernel region that accumulates the one-hot matrix
  against the user coefficient table tile by tile, a host operation widening the availability mask, a second kernel
  region computing the masked utilities forty items at a time, and a final transpose.  One run theorem, generic in
  the float instance, gives termination without fault, the arguments unchanged, and the result array named; read at
  the word-level instance and at the ideal instance it is the two frames.  The reference is a straight line of host
  operations, whose generated run gives its frame and its result term.  Nothing was rewritten by the ideal pass, so the
  idealization claim is trivial.  For the value claim both result arrays are the specification `Cert.Spec.G` of the
  arguments: the kernel's by reading its run back through the regions, the reference's by regrouping sums of extended
  reals (commutativity and associativity only, so the finiteness precondition is never opened).
-/
import proofs.«176079_g88974542504030_cont_9to1c4b_294_10_alg».proof.Defs
import proofs.«176079_g88974542504030_cont_9to1c4b_294_10_alg».proof.Proof.Gen.Kernel
import proofs.«176079_g88974542504030_cont_9to1c4b_294_10_alg».proof.Proof.Gen.KernelIdeal
import proofs.«176079_g88974542504030_cont_9to1c4b_294_10_alg».proof.Proof.Gen.ReferenceIdeal
import proofs.«176079_g88974542504030_cont_9to1c4b_294_10_alg».proof.Proof.Gen.ReferenceIdeal.Run
import proofs.«176079_g88974542504030_cont_9to1c4b_294_10_alg».proof.Proof.Gen.Pre_finite_inputs
import proofs.«176079_g88974542504030_cont_9to1c4b_294_10_alg».proof.Proof.KRun
import proofs.«176079_g88974542504030_cont_9to1c4b_294_10_alg».proof.Proof.KIRun
import proofs.«176079_g88974542504030_cont_9to1c4b_294_10_alg».proof.Proof.KIValue
import proofs.«176079_g88974542504030_cont_9to1c4b_294_10_alg».proof.Proof.RefValue
import Idealize.ShloMosaic.Adequacy
import Idealize.ShloMosaic.Init

noncomputable section

namespace Cert.Proof

open Idealize.ShloMosaic Idealize.SL.Sem

/-- The word-level kernel program runs and leaves its arguments unchanged: the run theorem with the result dropped. -/
theorem frame_k : Cert.frame_Kernel := fun m ρ _ =>
  (θ_run Cert.Kernel.defs _ _).mono (fun _ h c => (h c).2) (Cert.Kernel.Hand.run_all (F := Bits) m ρ)

/-- The same of the idealized kernel program. -/
theorem frame_ki : Cert.frame_KernelIdeal := fun m ρ _ =>
  (θ_run Cert.KernelIdeal.defs _ _).mono (fun _ h c => (h c).2) (Cert.KernelIdeal.Hand.run_all (F := Ideal) m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the specification of the arguments. -/
theorem algebraic : Cert.algebraic_KernelIdeal_ReferenceIdeal := by
  intro m ρ m' ρ' _ hagree
  refine ⟨fun c => Cert.Spec.G (Cert.KernelIdeal.Hand.arg0 m c) (Cert.KernelIdeal.Hand.arg1 m c) (Cert.KernelIdeal.Hand.arg2 m c)
      (Cert.KernelIdeal.Hand.arg3 m c) (Cert.KernelIdeal.Hand.arg4 m c) (Cert.KernelIdeal.Hand.arg5 m c) (Cert.KernelIdeal.Hand.arg6 m c), ?_, ?_⟩
  · exact (θ_run Cert.KernelIdeal.defs _ _).mono
      (fun _ h c => ⟨(h c).1.trans (Cert.KernelIdeal.Hand.result_value m c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
